-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S60000x16 : Shape := ⟨2, ![60000, 16]⟩
abbrev S96x1 : Shape := ⟨2, ![96, 1]⟩
abbrev S60000x3 : Shape := ⟨2, ![60000, 3]⟩
abbrev S19x39 : Shape := ⟨2, ![19, 39]⟩
abbrev S19 : Shape := ⟨1, ![19]⟩
abbrev S1x19 : Shape := ⟨2, ![1, 19]⟩
abbrev S1 : Shape := ⟨1, ![1]⟩
abbrev S60000 : Shape := ⟨1, ![60000]⟩
abbrev S96 : Shape := ⟨1, ![96]⟩
abbrev S_ : Shape := ⟨0, ![]⟩

class Facts : Prop where
  bcast_S_S60000x16 : S_.BroadcastsInDim S60000x16 (![] : Fin 0 → Fin S60000x16.rank)
  reducesTo_S60000x16_S_d0_1 : S60000x16.ReducesTo [0, 1] S_
  h_S_ : 0 < S_.numel
  bcast_S_S96x1 : S_.BroadcastsInDim S96x1 (![] : Fin 0 → Fin S96x1.rank)
  reducesTo_S96x1_S_d0_1 : S96x1.ReducesTo [0, 1] S_
  bcast_S_S60000x3 : S_.BroadcastsInDim S60000x3 (![] : Fin 0 → Fin S60000x3.rank)
  reducesTo_S60000x3_S_d0_1 : S60000x3.ReducesTo [0, 1] S_
  bcast_S_S19x39 : S_.BroadcastsInDim S19x39 (![] : Fin 0 → Fin S19x39.rank)
  reducesTo_S19x39_S_d0_1 : S19x39.ReducesTo [0, 1] S_
  bcast_S_S19 : S_.BroadcastsInDim S19 (![] : Fin 0 → Fin S19.rank)
  reducesTo_S19_S_d0 : S19.ReducesTo [0] S_
  bcast_S_S1x19 : S_.BroadcastsInDim S1x19 (![] : Fin 0 → Fin S1x19.rank)
  reducesTo_S1x19_S_d0_1 : S1x19.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S19 .f32) (main_arg5 : FVec F S1x19 .f32) (main_arg6 : FVec F S1 .f32) (main_v13 : IVec S_ 1) (main_v16 : IVec S19x39 1) : IVec S_ 1 :=
  let main_c_5 : IVec S_ 1 := constantI S_ 1 1#1
  let main_v17 : IVec S_ 1 := (fun x v => Host.reduce IntOp.andi x v reducesTo_S19x39_S_d0_1 h_S_) main_v16 main_c_5
  let main_v18 : IVec S_ 1 := andi main_v13 main_v17
  let main_v19 : FVec F S19 .f32 := Host.absf main_arg4
  let main_cst_6 : FVec F S_ .f32 := constant S_ .f32 0x7F800000#32
  let main_v20 : FVec F S19 .f32 := broadcastInDim S19 ![] bcast_S_S19 main_cst_6
  let main_v21 : IVec S19 1 := cmpf .olt main_v19 main_v20
  let main_c_7 : IVec S_ 1 := constantI S_ 1 1#1
  let main_v22 : IVec S_ 1 := (fun x v => Host.reduce IntOp.andi x v reducesTo_S19_S_d0 h_S_) main_v21 main_c_7
  let main_v23 : IVec S_ 1 := andi main_v18 main_v22
  let main_v24 : FVec F S1x19 .f32 := Host.absf main_arg5
  let main_cst_8 : FVec F S_ .f32 := constant S_ .f32 0x7F800000#32
  let main_v25 : FVec F S1x19 .f32 := broadcastInDim S1x19 ![] bcast_S_S1x19 main_cst_8
  let main_v26 : IVec S1x19 1 := cmpf .olt main_v24 main_v25
  let main_c_9 : IVec S_ 1 := constantI S_ 1 1#1
  let main_v27 : IVec S_ 1 := (fun x v => Host.reduce IntOp.andi x v reducesTo_S1x19_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S60000x16 .f32) (main_arg1 : FVec F S96x1 .f32) (main_arg2 : FVec F S60000x3 .f32) (main_arg3 : FVec F S19x39 .f32) (main_arg4 : FVec F S19 .f32) (main_arg5 : FVec F S1x19 .f32) (main_arg6 : FVec F S1 .f32) (main_arg7 : IVec S60000x3 32) (main_arg8 : IVec S60000 32) (main_arg9 : IVec S96 32) : IVec S_ 1 :=
  let main_v0 : FVec F S60000x16 .f32 := Host.absf main_arg0
  let main_cst : FVec F S_ .f32 := constant S_ .f32 0x7F800000#32
  let main_v1 : FVec F S60000x16 .f32 := broadcastInDim S60000x16 ![] bcast_S_S60000x16 main_cst
  let main_v2 : IVec S60000x16 1 := cmpf .olt main_v0 main_v1
  let main_c : IVec S_ 1 := constantI S_ 1 1#1
  let main_v3 : IVec S_ 1 := (fun x v => Host.reduce IntOp.andi x v reducesTo_S60000x16_S_d0_1 h_S_) main_v2 main_c
  let main_v4 : FVec F S96x1 .f32 := Host.absf main_arg1
  let main_cst_0 : FVec F S_ .f32 := constant S_ .f32 0x7F800000#32
  let main_v5 : FVec F S96x1 .f32 := broadcastInDim S96x1 ![] bcast_S_S96x1 main_cst_0
  let main_v6 : IVec S96x1 1 := cmpf .olt main_v4 main_v5
  let main_c_1 : IVec S_ 1 := constantI S_ 1 1#1
  let main_v7 : IVec S_ 1 := (fun x v => Host.reduce IntOp.andi x v reducesTo_S96x1_S_d0_1 h_S_) main_v6 main_c_1
  let main_v8 : IVec S_ 1 := andi main_v3 main_v7
  let main_v9 : FVec F S60000x3 .f32 := Host.absf main_arg2
  let main_cst_2 : FVec F S_ .f32 := constant S_ .f32 0x7F800000#32
  let main_v10 : FVec F S60000x3 .f32 := broadcastInDim S60000x3 ![] bcast_S_S60000x3 main_cst_2
  let main_v11 : IVec S60000x3 1 := cmpf .olt main_v9 main_v10
  let main_c_3 : IVec S_ 1 := constantI S_ 1 1#1
  let main_v12 : IVec S_ 1 := (fun x v => Host.reduce IntOp.andi x v reducesTo_S60000x3_S_d0_1 h_S_) main_v11 main_c_3
  let main_v13 : IVec S_ 1 := andi main_v8 main_v12
  let main_v14 : FVec F S19x39 .f32 := Host.absf main_arg3
  let main_cst_4 : FVec F S_ .f32 := constant S_ .f32 0x7F800000#32
  let main_v15 : FVec F S19x39 .f32 := broadcastInDim S19x39 ![] bcast_S_S19x39 main_cst_4
  let main_v16 : IVec S19x39 1 := cmpf .olt main_v14 main_v15
  fn_part1 (F := F) main_arg4 main_arg5 main_arg6 main_v13 main_v16
-- ==== Kernel.lean ====
abbrev S60000x16 : Shape := ⟨2, ![60000, 16]⟩
abbrev S96x1 : Shape := ⟨2, ![96, 1]⟩
abbrev S60000x3 : Shape := ⟨2, ![60000, 3]⟩
abbrev S19x39 : Shape := ⟨2, ![19, 39]⟩
abbrev S19 : Shape := ⟨1, ![19]⟩
abbrev S1x19 : Shape := ⟨2, ![1, 19]⟩
abbrev S1 : Shape := ⟨1, ![1]⟩
abbrev S60000 : Shape := ⟨1, ![60000]⟩
abbrev S96 : Shape := ⟨1, ![96]⟩
abbrev S19x3 : Shape := ⟨2, ![19, 3]⟩
abbrev S19x16 : Shape := ⟨2, ![19, 16]⟩
abbrev S19x1 : Shape := ⟨2, ![19, 1]⟩
abbrev S_ : Shape := ⟨0, ![]⟩
abbrev S96x16 : Shape := ⟨2, ![96, 16]⟩
abbrev S96x3 : Shape := ⟨2, ![96, 3]⟩
abbrev S16x19 : Shape := ⟨2, ![16, 19]⟩
abbrev S96x19 : Shape := ⟨2, ![96, 19]⟩
abbrev S60000x1 : Shape := ⟨2, ![60000, 1]⟩
abbrev S1x96 : Shape := ⟨2, ![1, 96]⟩
abbrev S1x1 : Shape := ⟨2, ![1, 1]⟩
abbrev S60000x96 : Shape := ⟨2, ![60000, 96]⟩
abbrev S1000x16 : Shape := ⟨2, ![1000, 16]⟩
abbrev S1000x3 : Shape := ⟨2, ![1000, 3]⟩
abbrev S1000x1 : Shape := ⟨2, ![1000, 1]⟩
abbrev S1000x96 : Shape := ⟨2, ![1000, 96]⟩
abbrev S3x19 : Shape := ⟨2, ![3, 19]⟩
abbrev S1000x19 : Shape := ⟨2, ![1000, 19]⟩
abbrev S1000x1x3 : Shape := ⟨3, ![1000, 1, 3]⟩
abbrev S1x96x3 : Shape := ⟨3, ![1, 96, 3]⟩
abbrev S1000x96x3 : Shape := ⟨3, ![1000, 96, 3]⟩
abbrev S1000x96x19 : Shape := ⟨3, ![1000, 96, 19]⟩
abbrev S1x1x19 : Shape := ⟨3, ![1, 1, 19]⟩
abbrev S1000x96x1 : Shape := ⟨3, ![1000, 96, 1]⟩
abbrev S1000x1x19 : Shape := ⟨3, ![1000, 1, 19]⟩
abbrev S1x96x19 : Shape := ⟨3, ![1, 96, 19]⟩

abbrev nBuf : Space → Nat
  | .hbm => 55
  | .vmem => 18
  | .smem => 0
  | _ => 0

abbrev bufTy : (tb : Table) → Fin (tcTables nBuf tb) → BufTy
  | .hbm, ⟨0, _⟩ => ⟨S60000x16, .f32⟩
  | .hbm, ⟨1, _⟩ => ⟨S96x1, .f32⟩
  | .hbm, ⟨2, _⟩ => ⟨S60000x3, .f32⟩
  | .hbm, ⟨3, _⟩ => ⟨S19x39, .f32⟩
  | .hbm, ⟨4, _⟩ => ⟨S19, .f32⟩
  | .hbm, ⟨5, _⟩ => ⟨S1x19, .f32⟩
  | .hbm, ⟨6, _⟩ => ⟨S1, .f32⟩
  | .hbm, ⟨7, _⟩ => ⟨S60000x3, .i32⟩
  | .hbm, ⟨8, _⟩ => ⟨S60000, .i32⟩
  | .hbm, ⟨9, _⟩ => ⟨S96, .i32⟩
  | .hbm, ⟨10, _⟩ => ⟨S19x3, .f32⟩
  | .hbm, ⟨11, _⟩ => ⟨S19x16, .f32⟩
  | .hbm, ⟨12, _⟩ => ⟨S19x16, .f32⟩
  | .hbm, ⟨13, _⟩ => ⟨S19x1, .f32⟩
  | .hbm, ⟨14, _⟩ => ⟨S19x3, .f32⟩
  | .hbm, ⟨15, _⟩ => ⟨S_, .i32⟩
  | .hbm, ⟨16, _⟩ => ⟨S96, .i32⟩
  | .hbm, ⟨17, _⟩ => ⟨S96, .i1⟩
  | .hbm, ⟨18, _⟩ => ⟨S_, .i32⟩
  | .hbm, ⟨19, _⟩ => ⟨S96, .i32⟩
  | .hbm, ⟨20, _⟩ => ⟨S96, .i32⟩
  | .hbm, ⟨21, _⟩ => ⟨S96, .i32⟩
  | .hbm, ⟨22, _⟩ => ⟨S96x1, .i32⟩
  | .hbm, ⟨23, _⟩ => ⟨S96x16, .f32⟩
  | .hbm, ⟨24, _⟩ => ⟨S_, .i32⟩
  | .hbm, ⟨25, _⟩ => ⟨S96, .i32⟩
  | .hbm, ⟨26, _⟩ => ⟨S96, .i1⟩
  | .hbm, ⟨27, _⟩ => ⟨S_, .i32⟩
  | .hbm, ⟨28, _⟩ => ⟨S96, .i32⟩
  | .hbm, ⟨29, _⟩ => ⟨S96, .i32⟩
  | .hbm, ⟨30, _⟩ => ⟨S96, .i32⟩
  | .hbm, ⟨31, _⟩ => ⟨S96x1, .i32⟩
  | .hbm, ⟨32, _⟩ => ⟨S96x3, .i32⟩
  | .hbm, ⟨33, _⟩ => ⟨S96x3, .f32⟩
  | .hbm, ⟨34, _⟩ => ⟨S_, .i32⟩
  | .hbm, ⟨35, _⟩ => ⟨S96, .i32⟩
  | .hbm, ⟨36, _⟩ => ⟨S96, .i1⟩
  | .hbm, ⟨37, _⟩ => ⟨S_, .i32⟩
  | .hbm, ⟨38, _⟩ => ⟨S96, .i32⟩
  | .hbm, ⟨39, _⟩ => ⟨S96, .i32⟩
  | .hbm, ⟨40, _⟩ => ⟨S96, .i32⟩
  | .hbm, ⟨41, _⟩ => ⟨S96x1, .i32⟩
  | .hbm, ⟨42, _⟩ => ⟨S96, .i32⟩
  | .hbm, ⟨43, _⟩ => ⟨S16x19, .f32⟩
  | .hbm, ⟨44, _⟩ => ⟨S96x19, .f32⟩
  | .hbm, ⟨45, _⟩ => ⟨S1x19, .f32⟩
  | .hbm, ⟨46, _⟩ => ⟨S96x19, .f32⟩
  | .hbm, ⟨47, _⟩ => ⟨S96x19, .f32⟩
  | .hbm, ⟨48, _⟩ => ⟨S1x19, .f32⟩
  | .hbm, ⟨49, _⟩ => ⟨S96x19, .f32⟩
  | .hbm, ⟨50, _⟩ => ⟨S96x19, .f32⟩
  | .hbm, ⟨51, _⟩ => ⟨S60000x1, .i32⟩
  | .hbm, ⟨52, _⟩ => ⟨S1x96, .i32⟩
  | .hbm, ⟨53, _⟩ => ⟨S1x1, .f32⟩
  | .hbm, ⟨54, _⟩ => ⟨S60000x96, .f32⟩
  | .local _ .vmem, ⟨0, _⟩ => ⟨S1000x16, .f32⟩
  | .local _ .vmem, ⟨1, _⟩ => ⟨S1000x16, .f32⟩
  | .local _ .vmem, ⟨2, _⟩ => ⟨S1000x3, .f32⟩
  | .local _ .vmem, ⟨3, _⟩ => ⟨S1000x3, .f32⟩
  | .local _ .vmem, ⟨4, _⟩ => ⟨S1000x3, .i32⟩
  | .local _ .vmem, ⟨5, _⟩ => ⟨S1000x3, .i32⟩
  | .local _ .vmem, ⟨6, _⟩ => ⟨S1000x1, .i32⟩
  | .local _ .vmem, ⟨7, _⟩ => ⟨S1000x1, .i32⟩
  | .local _ .vmem, ⟨8, _⟩ => ⟨S96x3, .f32⟩
  | .local _ .vmem, ⟨9, _⟩ => ⟨S96x19, .f32⟩
  | .local _ .vmem, ⟨10, _⟩ => ⟨S1x96, .i32⟩
  | .local _ .vmem, ⟨11, _⟩ => ⟨S19x3, .f32⟩
  | .local _ .vmem, ⟨12, _⟩ => ⟨S19x16, .f32⟩
  | .local _ .vmem, ⟨13, _⟩ => ⟨S19x3, .f32⟩
  | .local _ .vmem, ⟨14, _⟩ => ⟨S1x19, .f32⟩
  | .local _ .vmem, ⟨15, _⟩ => ⟨S1x1, .f32⟩
  | .local _ .vmem, ⟨16, _⟩ => ⟨S1000x96, .f32⟩
  | .local _ .vmem, ⟨17, _⟩ => ⟨S1000x96, .f32⟩
  | _, _ => ⟨S60000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![60], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x3 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S96x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x19 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x96 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S19x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S19x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S19x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x19 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1000x96 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S19x39_S19x3_0_0 : S19x39.Slices ![0, 0] S19x3
  slices_S19x39_S19x16_0_3 : S19x39.Slices ![0, 3] S19x16
  slices_S19x39_S19x16_0_19 : S19x39.Slices ![0, 19] S19x16
  slices_S19x39_S19x1_0_35 : S19x39.Slices ![0, 35] S19x1
  slices_S19x39_S19x3_0_36 : S19x39.Slices ![0, 36] S19x3
  bcast_S_S96 : S_.BroadcastsInDim S96 (![] : Fin 0 → Fin S96.rank)
  bcast_S96_S96x1_0 : S96.BroadcastsInDim S96x1 (![0] : Fin 1 → Fin S96x1.rank)
  transposes_S19x16_S16x19_1_0 : S19x16.Transposes [1, 0] S16x19
  transposes_S19x1_S1x19_1_0 : S19x1.Transposes [1, 0] S1x19
  bcast_S19_S1x19_1 : S19.BroadcastsInDim S1x19 (![1] : Fin 1 → Fin S1x19.rank)
  bcast_S1x19_S96x19_0_1 : S1x19.BroadcastsInDim S96x19 (![0, 1] : Fin 2 → Fin S96x19.rank)
  shapeCasts_S60000_S60000x1 : S60000.ShapeCasts S60000x1
  shapeCasts_S96_S1x96 : S96.ShapeCasts S1x96
  shapeCasts_S1_S1x1 : S1.ShapeCasts S1x1
  inb_S1000x3_S1000x3_0_0 : ∀ a, (![0, 0] : Fin 2 → Nat) a + S1000x3.size a ≤ S1000x3.size a
  h_S1000x3 : 0 < S1000x3.numel
  inb_S1000x16_S1000x16_0_0 : ∀ a, (![0, 0] : Fin 2 → Nat) a + S1000x16.size a ≤ S1000x16.size a
  h_S1000x16 : 0 < S1000x16.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  inb_S19x3_S19x3_0_0 : ∀ a, (![0, 0] : Fin 2 → Nat) a + S19x3.size a ≤ S19x3.size a
  h_S19x3 : 0 < S19x3.numel
  shapeCasts_S19x3_S19x3 : S19x3.ShapeCasts S19x3
  transposes_S19x3_p1_0_S3x19 : S19x3.Transposes [1, 0] S3x19
  inb_S19x16_S19x16_0_0 : ∀ a, (![0, 0] : Fin 2 → Nat) a + S19x16.size a ≤ S19x16.size a
  h_S19x16 : 0 < S19x16.numel
  shapeCasts_S19x16_S19x16 : S19x16.ShapeCasts S19x16
  transposes_S19x16_p1_0_S16x19 : S19x16.Transposes [1, 0] S16x19
  inb_S96x3_S96x3_0_0 : ∀ a, (![0, 0] : Fin 2 → Nat) a + S96x3.size a ≤ S96x3.size a
  h_S96x3 : 0 < S96x3.numel
  shapeCasts_S96x3_S96x3 : S96x3.ShapeCasts S96x3
  shapeCasts_S1000x3_S1000x1x3 : S1000x3.ShapeCasts S1000x1x3
  shapeCasts_S96x3_S1x96x3 : S96x3.ShapeCasts S1x96x3
  broadcasts_S1000x1x3_S1000x96x3 : S1000x1x3.Broadcasts S1000x96x3
  broadcasts_S1x96x3_S1000x96x3 : S1x96x3.Broadcasts S1000x96x3
  slices_S19x3_o0_0_S19x1 : S19x3.Slices ![0, 0] S19x1
  shapeCasts_S19x1_S19 : S19x1.ShapeCasts S19
  shapeCasts_S19_S1x1x19 : S19.ShapeCasts S1x1x19
  slices_S1000x96x3_o0_0_0_S1000x96x1 : S1000x96x3.Slices ![0, 0, 0] S1000x96x1
  broadcasts_S1000x96x1_S1000x96x19 : S1000x96x1.Broadcasts S1000x96x19
  broadcasts_S1x1x19_S1000x96x19 : S1x1x19.Broadcasts S1000x96x19
  slices_S19x3_o0_1_S19x1 : S19x3.Slices ![0, 1] S19x1
  slices_S1000x96x3_o0_0_1_S1000x96x1 : S1000x96x3.Slices ![0, 0, 1] S1000x96x1
  slices_S19x3_o0_2_S19x1 : S19x3.Slices ![0, 2] S19x1
  slices_S1000x96x3_o0_0_2_S1000x96x1 : S1000x96x3.Slices ![0, 0, 2] S1000x96x1
  inb_S96x19_S96x19_0_0 : ∀ a, (![0, 0] : Fin 2 → Nat) a + S96x19.size a ≤ S96x19.size a
  h_S96x19 : 0 < S96x19.numel
  shapeCasts_S96x19_S96x19 : S96x19.ShapeCasts S96x19
  shapeCasts_S1000x19_S1000x1x19 : S1000x19.ShapeCasts S1000x1x19
  shapeCasts_S96x19_S1x96x19 : S96x19.ShapeCasts S1x96x19
  broadcasts_S1000x1x19_S1000x96x19 : S1000x1x19.Broadcasts S1000x96x19
  broadcasts_S1x96x19_S1000x96x19 : S1x96x19.Broadcasts S1000x96x19
  inb_S1x19_S1x19_0_0 : ∀ a, (![0, 0] : Fin 2 → Nat) a + S1x19.size a ≤ S1x19.size a
  h_S1x19 : 0 < S1x19.numel
  shapeCasts_S1x19_S1x1x19 : S1x19.ShapeCasts S1x1x19
  reduces_S1000x96x19_S1000x96 : S1000x96x19.Reduces [2] S1000x96
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1000x1_S1000x96 : S1000x1.Broadcasts S1000x96
  broadcasts_S1x96_S1000x96 : S1x96.Broadcasts S1000x96
  inb_S1000x96_S1000x96_0_0 : ∀ a, (![0, 0] : Fin 2 → Nat) a + S1000x96.size a ≤ S1000x96.size a
  h_S1000x96 : 0 < S1000x96.numel
  gather_S60000x16_S96x1_S96x16_1_0_n_n_0_1_116_wf : GatherDims.WF S60000x16 S96x1 S96x16 [1] [0] [] [0] [] 1 ![1, 16]
  gather_S60000x3_S96x1_S96x3_1_0_n_n_0_1_13_wf : GatherDims.WF S60000x3 S96x1 S96x3 [1] [0] [] [0] [] 1 ![1, 3]
  gather_S60000_S96x1_S96_n_0_n_n_0_1_1_wf : GatherDims.WF S60000 S96x1 S96 [] [0] [] [0] [] 1 ![1]
  dot_S96x16_S16x19_S96x19_1_0_0_1_n_n_wf : DotDims.WF S96x16 S16x19 S96x19 [1] [0] [0] [1] [] []
  dot_S96x1_S1x19_S96x19_1_0_0_1_n_n_wf : DotDims.WF S96x1 S1x19 S96x19 [1] [0] [0] [1] [] []
  dot_S1000x3_S3x19_S1000x19_1_0_0_1_n_n_wf : DotDims.WF S1000x3 S3x19 S1000x19 [1] [0] [0] [1] [] []
  dot_S1000x16_S16x19_S1000x19_1_0_0_1_n_n_wf : DotDims.WF S1000x16 S16x19 S1000x19 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x16.size a ≤ S60000x16.size a
  hwx0_0 : ∀ i : grid0.Coords, EltTy.bits .f32 = 32 ∨ (Rect.block (s := S60000x16) S1000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x3.size a ≤ S60000x3.size a
  hwx0_1 : ∀ i : grid0.Coords, EltTy.bits .f32 = 32 ∨ (Rect.block (s := S60000x3) S1000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x3.size a ≤ S60000x3.size a
  hwx0_2 : ∀ i : grid0.Coords, EltTy.bits .i32 = 32 ∨ (Rect.block (s := S60000x3) S1000x3.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x1.size a ≤ S60000x1.size a
  hwx0_3 : ∀ i : grid0.Coords, EltTy.bits .i32 = 32 ∨ (Rect.block (s := S60000x1) S1000x1.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x3.size a ≤ S96x3.size a
  hwx0_4 : ∀ i : grid0.Coords, EltTy.bits .f32 = 32 ∨ (Rect.block (s := S96x3) S96x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96x19.size a ≤ S96x19.size a
  hwx0_5 : ∀ i : grid0.Coords, EltTy.bits .f32 = 32 ∨ (Rect.block (s := S96x19) S96x19.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x96.size a ≤ S1x96.size a
  hwx0_6 : ∀ i : grid0.Coords, EltTy.bits .i32 = 32 ∨ (Rect.block (s := S1x96) S1x96.size (cc0_transform_6 i) (hinb0_6 i)).WholeWords (EltTy.packing .i32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S19x3.size a ≤ S19x3.size a
  hwx0_7 : ∀ i : grid0.Coords, EltTy.bits .f32 = 32 ∨ (Rect.block (s := S19x3) S19x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S19x16.size a ≤ S19x16.size a
  hwx0_8 : ∀ i : grid0.Coords, EltTy.bits .f32 = 32 ∨ (Rect.block (s := S19x16) S19x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S19x3.size a ≤ S19x3.size a
  hwx0_9 : ∀ i : grid0.Coords, EltTy.bits .f32 = 32 ∨ (Rect.block (s := S19x3) S19x3.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x19.size a ≤ S1x19.size a
  hwx0_10 : ∀ i : grid0.Coords, EltTy.bits .f32 = 32 ∨ (Rect.block (s := S1x19) S1x19.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x96.size a ≤ S60000x96.size a
  hwx0_12 : ∀ i : grid0.Coords, EltTy.bits .f32 = 32 ∨ (Rect.block (s := S60000x96) S1000x96.size (cc0_transform_12 i) (hinb0_12 i)).WholeWords (EltTy.packing .f32)

variable [Facts₀]

def gather_S60000x16_S96x1_S96x16_1_0_n_n_0_1_116 : GatherDims S60000x16 S96x1 S96x16 where
  offsetDims := [1]
  collapsedSliceDims := [0]
  operandBatchingDims := []
  startIndicesBatchingDims := []
  startIndexMap := [0]
  indexVectorDim := 1
  sliceSizes := ![1, 16]
  wf := gather_S60000x16_S96x1_S96x16_1_0_n_n_0_1_116_wf
def gather_S60000x3_S96x1_S96x3_1_0_n_n_0_1_13 : GatherDims S60000x3 S96x1 S96x3 where
  offsetDims := [1]
  collapsedSliceDims := [0]
  operandBatchingDims := []
  startIndicesBatchingDims := []
  startIndexMap := [0]
  indexVectorDim := 1
  sliceSizes := ![1, 3]
  wf := gather_S60000x3_S96x1_S96x3_1_0_n_n_0_1_13_wf
def gather_S60000_S96x1_S96_n_0_n_n_0_1_1 : GatherDims S60000 S96x1 S96 where
  offsetDims := []
  collapsedSliceDims := [0]
  operandBatchingDims := []
  startIndicesBatchingDims := []
  startIndexMap := [0]
  indexVectorDim := 1
  sliceSizes := ![1]
  wf := gather_S60000_S96x1_S96_n_0_n_n_0_1_1_wf
def dot_S96x16_S16x19_S96x19_1_0_0_1_n_n : DotDims S96x16 S16x19 S96x19 where
  lhsContracting := [1]
  rhsContracting := [0]
  lhsNonContracting := [0]
  rhsNonContracting := [1]
  lhsBatch := []
  rhsBatch := []
  wf := dot_S96x16_S16x19_S96x19_1_0_0_1_n_n_wf
def dot_S96x1_S1x19_S96x19_1_0_0_1_n_n : DotDims S96x1 S1x19 S96x19 where
  lhsContracting := [1]
  rhsContracting := [0]
  lhsNonContracting := [0]
  rhsNonContracting := [1]
  lhsBatch := []
  rhsBatch := []
  wf := dot_S96x1_S1x19_S96x19_1_0_0_1_n_n_wf
def dot_S1000x3_S3x19_S1000x19_1_0_0_1_n_n : DotDims S1000x3 S3x19 S1000x19 where
  lhsContracting := [1]
  rhsContracting := [0]
  lhsNonContracting := [0]
  rhsNonContracting := [1]
  lhsBatch := []
  rhsBatch := []
  wf := dot_S1000x3_S3x19_S1000x19_1_0_0_1_n_n_wf
def dot_S1000x16_S16x19_S1000x19_1_0_0_1_n_n : DotDims S1000x16 S16x19 S1000x19 where
  lhsContracting := [1]
  rhsContracting := [0]
  lhsNonContracting := [0]
  rhsNonContracting := [1]
  lhsBatch := []
  rhsBatch := []
  wf := dot_S1000x16_S16x19_S1000x19_1_0_0_1_n_n_wf

abbrev win0_0 : Pipeline.Window sig grid0 :=
  Pipeline.Window.ofSpec (Memref.whole main_arg0) S1000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S1000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S96x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S96x19.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S19x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S19x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S19x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S1x19.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v38) S1000x96.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S60000x16 : Shape := ⟨2, ![60000, 16]⟩
abbrev S96x1 : Shape := ⟨2, ![96, 1]⟩
abbrev S60000x3 : Shape := ⟨2, ![60000, 3]⟩
abbrev S19x39 : Shape := ⟨2, ![19, 39]⟩
abbrev S19 : Shape := ⟨1, ![19]⟩
abbrev S1x19 : Shape := ⟨2, ![1, 19]⟩
abbrev S1 : Shape := ⟨1, ![1]⟩
abbrev S60000 : Shape := ⟨1, ![60000]⟩
abbrev S96 : Shape := ⟨1, ![96]⟩
abbrev S_ : Shape := ⟨0, ![]⟩
abbrev S96x16 : Shape := ⟨2, ![96, 16]⟩
abbrev S96x17 : Shape := ⟨2, ![96, 17]⟩
abbrev S60000x19 : Shape := ⟨2, ![60000, 19]⟩
abbrev S96x3 : Shape := ⟨2, ![96, 3]⟩
abbrev S60000x1x3 : Shape := ⟨3, ![60000, 1, 3]⟩
abbrev S1x96x3 : Shape := ⟨3, ![1, 96, 3]⟩
abbrev S60000x96x3 : Shape := ⟨3, ![60000, 96, 3]⟩
abbrev S19x19 : Shape := ⟨2, ![19, 19]⟩
abbrev S19x17 : Shape := ⟨2, ![19, 17]⟩
abbrev S19x3 : Shape := ⟨2, ![19, 3]⟩
abbrev S60000x1x19 : Shape := ⟨3, ![60000, 1, 19]⟩
abbrev S17x19 : Shape := ⟨2, ![17, 19]⟩
abbrev S96x19 : Shape := ⟨2, ![96, 19]⟩
abbrev S1x96x19 : Shape := ⟨3, ![1, 96, 19]⟩
abbrev S60000x96x19 : Shape := ⟨3, ![60000, 96, 19]⟩
abbrev S1x1x19 : Shape := ⟨3, ![1, 1, 19]⟩
abbrev S60000x96x1 : Shape := ⟨3, ![60000, 96, 1]⟩
abbrev S60000x96 : Shape := ⟨2, ![60000, 96]⟩
abbrev S60000x1 : Shape := ⟨2, ![60000, 1]⟩
abbrev S1x96 : Shape := ⟨2, ![1, 96]⟩

abbrev nBuf : Space → Nat
  | .hbm => 106
  | .vmem => 0
  | .smem => 0
  | _ => 0

abbrev bufTy : (tb : Table) → Fin (tcTables nBuf tb) → BufTy
  | .hbm, ⟨0, _⟩ => ⟨S60000x16, .f32⟩
  | .hbm, ⟨1, _⟩ => ⟨S96x1, .f32⟩
  | .hbm, ⟨2, _⟩ => ⟨S60000x3, .f32⟩
  | .hbm, ⟨3, _⟩ => ⟨S19x39, .f32⟩
  | .hbm, ⟨4, _⟩ => ⟨S19, .f32⟩
  | .hbm, ⟨5, _⟩ => ⟨S1x19, .f32⟩
  | .hbm, ⟨6, _⟩ => ⟨S1, .f32⟩
  | .hbm, ⟨7, _⟩ => ⟨S60000x3, .i32⟩
  | .hbm, ⟨8, _⟩ => ⟨S60000, .i32⟩
  | .hbm, ⟨9, _⟩ => ⟨S96, .i32⟩
  | .hbm, ⟨10, _⟩ => ⟨S_, .i32⟩
  | .hbm, ⟨11, _⟩ => ⟨S96, .i32⟩
  | .hbm, ⟨12, _⟩ => ⟨S96, .i1⟩
  | .hbm, ⟨13, _⟩ => ⟨S_, .i32⟩
  | .hbm, ⟨14, _⟩ => ⟨S96, .i32⟩
  | .hbm, ⟨15, _⟩ => ⟨S96, .i32⟩
  | .hbm, ⟨16, _⟩ => ⟨S96, .i32⟩
  | .hbm, ⟨17, _⟩ => ⟨S96x1, .i32⟩
  | .hbm, ⟨18, _⟩ => ⟨S96x16, .f32⟩
  | .hbm, ⟨19, _⟩ => ⟨S96x17, .f32⟩
  | .hbm, ⟨20, _⟩ => ⟨S60000x19, .f32⟩
  | .hbm, ⟨21, _⟩ => ⟨S60000x3, .f32⟩
  | .hbm, ⟨22, _⟩ => ⟨S60000x3, .f32⟩
  | .hbm, ⟨23, _⟩ => ⟨S_, .i32⟩
  | .hbm, ⟨24, _⟩ => ⟨S96, .i32⟩
  | .hbm, ⟨25, _⟩ => ⟨S96, .i1⟩
  | .hbm, ⟨26, _⟩ => ⟨S_, .i32⟩
  | .hbm, ⟨27, _⟩ => ⟨S96, .i32⟩
  | .hbm, ⟨28, _⟩ => ⟨S96, .i32⟩
  | .hbm, ⟨29, _⟩ => ⟨S96, .i32⟩
  | .hbm, ⟨30, _⟩ => ⟨S96x1, .i32⟩
  | .hbm, ⟨31, _⟩ => ⟨S96x3, .i32⟩
  | .hbm, ⟨32, _⟩ => ⟨S96x3, .f32⟩
  | .hbm, ⟨33, _⟩ => ⟨S60000x1x3, .f32⟩
  | .hbm, ⟨34, _⟩ => ⟨S1x96x3, .f32⟩
  | .hbm, ⟨35, _⟩ => ⟨S60000x96x3, .f32⟩
  | .hbm, ⟨36, _⟩ => ⟨S60000x96x3, .f32⟩
  | .hbm, ⟨37, _⟩ => ⟨S60000x96x3, .f32⟩
  | .hbm, ⟨38, _⟩ => ⟨S19x19, .f32⟩
  | .hbm, ⟨39, _⟩ => ⟨S19x17, .f32⟩
  | .hbm, ⟨40, _⟩ => ⟨S19x3, .f32⟩
  | .hbm, ⟨41, _⟩ => ⟨S19x19, .f32⟩
  | .hbm, ⟨42, _⟩ => ⟨S60000x19, .f32⟩
  | .hbm, ⟨43, _⟩ => ⟨S60000x1x19, .f32⟩
  | .hbm, ⟨44, _⟩ => ⟨S17x19, .f32⟩
  | .hbm, ⟨45, _⟩ => ⟨S96x19, .f32⟩
  | .hbm, ⟨46, _⟩ => ⟨S1x96x19, .f32⟩
  | .hbm, ⟨47, _⟩ => ⟨S60000x96x19, .f32⟩
  | .hbm, ⟨48, _⟩ => ⟨S60000x96x19, .f32⟩
  | .hbm, ⟨49, _⟩ => ⟨S60000x96x19, .f32⟩
  | .hbm, ⟨50, _⟩ => ⟨S60000x96x19, .f32⟩
  | .hbm, ⟨51, _⟩ => ⟨S60000x96x19, .f32⟩
  | .hbm, ⟨52, _⟩ => ⟨S1x1x19, .f32⟩
  | .hbm, ⟨53, _⟩ => ⟨S60000x96x19, .f32⟩
  | .hbm, ⟨54, _⟩ => ⟨S60000x96x19, .f32⟩
  | .hbm, ⟨55, _⟩ => ⟨S_, .f32⟩
  | .hbm, ⟨56, _⟩ => ⟨S60000x96x19, .f32⟩
  | .hbm, ⟨57, _⟩ => ⟨S60000x96x19, .f32⟩
  | .hbm, ⟨58, _⟩ => ⟨S60000x96x1, .f32⟩
  | .hbm, ⟨59, _⟩ => ⟨S60000x96, .f32⟩
  | .hbm, ⟨60, _⟩ => ⟨S_, .f32⟩
  | .hbm, ⟨61, _⟩ => ⟨S60000x96, .f32⟩
  | .hbm, ⟨62, _⟩ => ⟨S60000x96, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S60000x96, .f32⟩
  | .hbm, ⟨67, _⟩ => ⟨S60000x96, .f32⟩
  | .hbm, ⟨68, _⟩ => ⟨S_, .f32⟩
  | .hbm, ⟨69, _⟩ => ⟨S60000x96, .f32⟩
  | .hbm, ⟨70, _⟩ => ⟨S60000x96, .f32⟩
  | .hbm, ⟨71, _⟩ => ⟨S_, .f32⟩
  | .hbm, ⟨72, _⟩ => ⟨S60000x96, .i1⟩
  | .hbm, ⟨73, _⟩ => ⟨S_, .f32⟩
  | .hbm, ⟨74, _⟩ => ⟨S60000x96, .f32⟩
  | .hbm, ⟨75, _⟩ => ⟨S60000x96, .f32⟩
  | .hbm, ⟨76, _⟩ => ⟨S_, .f32⟩
  | .hbm, ⟨77, _⟩ => ⟨S60000x96, .f32⟩
  | .hbm, ⟨78, _⟩ => ⟨S60000x96, .i1⟩
  | .hbm, ⟨79, _⟩ => ⟨S_, .f32⟩
  | .hbm, ⟨80, _⟩ => ⟨S60000x96, .f32⟩
  | .hbm, ⟨81, _⟩ => ⟨S60000x96, .f32⟩
  | .hbm, ⟨82, _⟩ => ⟨S_, .f32⟩
  | .hbm, ⟨83, _⟩ => ⟨S60000x96, .f32⟩
  | .hbm, ⟨84, _⟩ => ⟨S60000x96, .i1⟩
  | .hbm, ⟨85, _⟩ => ⟨S_, .f32⟩
  | .hbm, ⟨86, _⟩ => ⟨S60000x96, .f32⟩
  | .hbm, ⟨87, _⟩ => ⟨S60000x96, .f32⟩
  | .hbm, ⟨88, _⟩ => ⟨S60000x1, .i32⟩
  | .hbm, ⟨89, _⟩ => ⟨S_, .i32⟩
  | .hbm, ⟨90, _⟩ => ⟨S96, .i32⟩
  | .hbm, ⟨91, _⟩ => ⟨S96, .i1⟩
  | .hbm, ⟨92, _⟩ => ⟨S_, .i32⟩
  | .hbm, ⟨93, _⟩ => ⟨S96, .i32⟩
  | .hbm, ⟨94, _⟩ => ⟨S96, .i32⟩
  | .hbm, ⟨95, _⟩ => ⟨S96, .i32⟩
  | .hbm, ⟨96, _⟩ => ⟨S96x1, .i32⟩
  | .hbm, ⟨97, _⟩ => ⟨S96, .i32⟩
  | .hbm, ⟨98, _⟩ => ⟨S1x96, .i32⟩
  | .hbm, ⟨99, _⟩ => ⟨S60000x96, .i32⟩
  | .hbm, ⟨100, _⟩ => ⟨S60000x96, .i32⟩
  | .hbm, ⟨101, _⟩ => ⟨S60000x96, .i1⟩
  | .hbm, ⟨102, _⟩ => ⟨S_, .f32⟩
  | .hbm, ⟨103, _⟩ => ⟨S_, .f32⟩
  | .hbm, ⟨104, _⟩ => ⟨S60000x96, .f32⟩
  | .hbm, ⟨105, _⟩ => ⟨S60000x96, .f32⟩
  | _, _ => ⟨S60000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call0_cst : Ref sig .tc := ⟨.hbm, 55, rfl⟩
abbrev main_call0_v0 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst : Ref sig .tc := ⟨.hbm, 63, rfl⟩
abbrev main_cst_3 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v47 : Ref sig .tc := ⟨.hbm, 70, rfl⟩
abbrev main_cst_4 : Ref sig .tc := ⟨.hbm, 71, rfl⟩
abbrev main_call2_v0 : Ref sig .tc := ⟨.hbm, 72, rfl⟩
abbrev main_call2_v1 : Ref sig .tc := ⟨.hbm, 73, rfl⟩
abbrev main_call2_call0_v0 : Ref sig .tc := ⟨.hbm, 74, rfl⟩
abbrev main_call2_v2 : Ref sig .tc := ⟨.hbm, 75, rfl⟩
abbrev main_call2_cst : Ref sig .tc := ⟨.hbm, 76, rfl⟩
abbrev main_call2_v3 : Ref sig .tc := ⟨.hbm, 77, rfl⟩
abbrev main_call2_v4 : Ref sig .tc := ⟨.hbm, 78, rfl⟩
abbrev main_call2_cst_0 : Ref sig .tc := ⟨.hbm, 79, rfl⟩
abbrev main_call2_call1_v0 : Ref sig .tc := ⟨.hbm, 80, rfl⟩
abbrev main_call2_v5 : Ref sig .tc := ⟨.hbm, 81, rfl⟩
abbrev main_call2_cst_1 : Ref sig .tc := ⟨.hbm, 82, rfl⟩
abbrev main_call2_v6 : Ref sig .tc := ⟨.hbm, 83, rfl⟩
abbrev main_call2_v7 : Ref sig .tc := ⟨.hbm, 84, rfl⟩
abbrev main_call2_cst_2 : Ref sig .tc := ⟨.hbm, 85, rfl⟩
abbrev main_call2_call2_v0 : Ref sig .tc := ⟨.hbm, 86, rfl⟩
abbrev main_v48 : Ref sig .tc := ⟨.hbm, 87, rfl⟩
abbrev main_v49 : Ref sig .tc := ⟨.hbm, 88, rfl⟩
abbrev main_c_5 : Ref sig .tc := ⟨.hbm, 89, rfl⟩
abbrev main_v50 : Ref sig .tc := ⟨.hbm, 90, rfl⟩
abbrev main_v51 : Ref sig .tc := ⟨.hbm, 91, rfl⟩
abbrev main_c_6 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_7 : Ref sig .tc := ⟨.hbm, 102, rfl⟩
abbrev main_call3_v0 : Ref sig .tc := ⟨.hbm, 103, rfl⟩
abbrev main_call3_v1 : Ref sig .tc := ⟨.hbm, 104, rfl⟩
abbrev main_v61 : Ref sig .tc := ⟨.hbm, 105, rfl⟩

abbrev nD : Nat := 1
abbrev τ : Topo := Topo.v7x

variable {F : FTy → Type} [FloatOps F]

class Facts₀ : Prop where
  bcast_S_S96 : S_.BroadcastsInDim S96 (![] : Fin 0 → Fin S96.rank)
  bcast_S96_S96x1_0 : S96.BroadcastsInDim S96x1 (![0] : Fin 1 → Fin S96x1.rank)
  concatenates_S96x16_S96x1_S96x17_d1 : Shape.Concatenates [S96x16, S96x1] S96x17 1
  concatenates_S60000x3_S60000x16_S60000x19_d1 : Shape.Concatenates [S60000x3, S60000x16] S60000x19 1
  bcast_S60000x3_S60000x1x3_0_2 : S60000x3.BroadcastsInDim S60000x1x3 (![0, 2] : Fin 2 → Fin S60000x1x3.rank)
  bcast_S96x3_S1x96x3_1_2 : S96x3.BroadcastsInDim S1x96x3 (![1, 2] : Fin 2 → Fin S1x96x3.rank)
  bcast_S60000x1x3_S60000x96x3_0_1_2 : S60000x1x3.BroadcastsInDim S60000x96x3 (![0, 1, 2] : Fin 3 → Fin S60000x96x3.rank)
  bcast_S1x96x3_S60000x96x3_0_1_2 : S1x96x3.BroadcastsInDim S60000x96x3 (![0, 1, 2] : Fin 3 → Fin S60000x96x3.rank)
  slices_S19x39_S19x19_0_0 : S19x39.Slices ![0, 0] S19x19
  slices_S19x39_S19x17_0_19 : S19x39.Slices ![0, 19] S19x17
  slices_S19x39_S19x3_0_36 : S19x39.Slices ![0, 36] S19x3
  transposes_S19x19_S19x19_1_0 : S19x19.Transposes [1, 0] S19x19
  bcast_S60000x19_S60000x1x19_0_2 : S60000x19.BroadcastsInDim S60000x1x19 (![0, 2] : Fin 2 → Fin S60000x1x19.rank)
  transposes_S19x17_S17x19_1_0 : S19x17.Transposes [1, 0] S17x19
  bcast_S96x19_S1x96x19_1_2 : S96x19.BroadcastsInDim S1x96x19 (![1, 2] : Fin 2 → Fin S1x96x19.rank)
  bcast_S60000x1x19_S60000x96x19_0_1_2 : S60000x1x19.BroadcastsInDim S60000x96x19 (![0, 1, 2] : Fin 3 → Fin S60000x96x19.rank)
  bcast_S1x96x19_S60000x96x19_0_1_2 : S1x96x19.BroadcastsInDim S60000x96x19 (![0, 1, 2] : Fin 3 → Fin S60000x96x19.rank)
  bcast_S19_S1x1x19_2 : S19.BroadcastsInDim S1x1x19 (![2] : Fin 1 → Fin S1x1x19.rank)
  bcast_S1x1x19_S60000x96x19_0_1_2 : S1x1x19.BroadcastsInDim S60000x96x19 (![0, 1, 2] : Fin 3 → Fin S60000x96x19.rank)
  bcast_S_S60000x96x19 : S_.BroadcastsInDim S60000x96x19 (![] : Fin 0 → Fin S60000x96x19.rank)
  shapeCasts_S60000x96x1_S60000x96 : S60000x96x1.ShapeCasts S60000x96
  shapeCasts_S1_S_ : S1.ShapeCasts S_
  bcast_S_S60000x96 : S_.BroadcastsInDim S60000x96 (![] : Fin 0 → Fin S60000x96.rank)
  bcast_S60000_S60000x1_0 : S60000.BroadcastsInDim S60000x1 (![0] : Fin 1 → Fin S60000x1.rank)
  bcast_S96_S1x96_1 : S96.BroadcastsInDim S1x96 (![1] : Fin 1 → Fin S1x96.rank)
  bcast_S60000x1_S60000x96_0_1 : S60000x1.BroadcastsInDim S60000x96 (![0, 1] : Fin 2 → Fin S60000x96.rank)
  bcast_S1x96_S60000x96_0_1 : S1x96.BroadcastsInDim S60000x96 (![0, 1] : Fin 2 → Fin S60000x96.rank)
  gather_S60000x16_S96x1_S96x16_1_0_n_n_0_1_116_wf : GatherDims.WF S60000x16 S96x1 S96x16 [1] [0] [] [0] [] 1 ![1, 16]
  gather_S60000x3_S96x1_S96x3_1_0_n_n_0_1_13_wf : GatherDims.WF S60000x3 S96x1 S96x3 [1] [0] [] [0] [] 1 ![1, 3]
  dot_S60000x19_S19x19_S60000x19_1_0_0_1_n_n_wf : DotDims.WF S60000x19 S19x19 S60000x19 [1] [0] [0] [1] [] []
  dot_S96x17_S17x19_S96x19_1_0_0_1_n_n_wf : DotDims.WF S96x17 S17x19 S96x19 [1] [0] [0] [1] [] []
  dot_S60000x96x3_S19x3_S60000x96x19_2_1_01_0_n_n_wf : DotDims.WF S60000x96x3 S19x3 S60000x96x19 [2] [1] [0, 1] [0] [] []
  dot_S60000x96x19_S1x19_S60000x96x1_2_1_01_0_n_n_wf : DotDims.WF S60000x96x19 S1x19 S60000x96x1 [2] [1] [0, 1] [0] [] []
  gather_S60000_S96x1_S96_n_0_n_n_0_1_1_wf : GatherDims.WF S60000 S96x1 S96 [] [0] [] [0] [] 1 ![1]

variable [Facts₀]

def gather_S60000x16_S96x1_S96x16_1_0_n_n_0_1_116 : GatherDims S60000x16 S96x1 S96x16 where
  offsetDims := [1]
  collapsedSliceDims := [0]
  operandBatchingDims := []
  startIndicesBatchingDims := []
  startIndexMap := [0]
  indexVectorDim := 1
  sliceSizes := ![1, 16]
  wf := gather_S60000x16_S96x1_S96x16_1_0_n_n_0_1_116_wf
def gather_S60000x3_S96x1_S96x3_1_0_n_n_0_1_13 : GatherDims S60000x3 S96x1 S96x3 where
  offsetDims := [1]
  collapsedSliceDims := [0]
  operandBatchingDims := []
  startIndicesBatchingDims := []
  startIndexMap := [0]
  indexVectorDim := 1
  sliceSizes := ![1, 3]
  wf := gather_S60000x3_S96x1_S96x3_1_0_n_n_0_1_13_wf
def dot_S60000x19_S19x19_S60000x19_1_0_0_1_n_n : DotDims S60000x19 S19x19 S60000x19 where
  lhsContracting := [1]
  rhsContracting := [0]
  lhsNonContracting := [0]
  rhsNonContracting := [1]
  lhsBatch := []
  rhsBatch := []
  wf := dot_S60000x19_S19x19_S60000x19_1_0_0_1_n_n_wf
def dot_S96x17_S17x19_S96x19_1_0_0_1_n_n : DotDims S96x17 S17x19 S96x19 where
  lhsContracting := [1]
  rhsContracting := [0]
  lhsNonContracting := [0]
  rhsNonContracting := [1]
  lhsBatch := []
  rhsBatch := []
  wf := dot_S96x17_S17x19_S96x19_1_0_0_1_n_n_wf
def dot_S60000x96x3_S19x3_S60000x96x19_2_1_01_0_n_n : DotDims S60000x96x3 S19x3 S60000x96x19 where
  lhsContracting := [2]
  rhsContracting := [1]
  lhsNonContracting := [0, 1]
  rhsNonContracting := [0]
  lhsBatch := []
  rhsBatch := []
  wf := dot_S60000x96x3_S19x3_S60000x96x19_2_1_01_0_n_n_wf
def dot_S60000x96x19_S1x19_S60000x96x1_2_1_01_0_n_n : DotDims S60000x96x19 S1x19 S60000x96x1 where
  lhsContracting := [2]
  rhsContracting := [1]
  lhsNonContracting := [0, 1]
  rhsNonContracting := [0]
  lhsBatch := []
  rhsBatch := []
  wf := dot_S60000x96x19_S1x19_S60000x96x1_2_1_01_0_n_n_wf
def gather_S60000_S96x1_S96_n_0_n_n_0_1_1 : GatherDims S60000 S96x1 S96 where
  offsetDims := []
  collapsedSliceDims := [0]
  operandBatchingDims := []
  startIndicesBatchingDims := []
  startIndexMap := [0]
  indexVectorDim := 1
  sliceSizes := ![1]
  wf := gather_S60000_S96x1_S96_n_0_n_n_0_1_1_wf

class Facts : Prop extends Facts₀ where

variable [Facts]
-- ==== Proof.Spec.lean ====
/-
  The mathematics of the affinity head, index by index, at the ideal values.

  For voxel `n` and centroid `m` the hidden pre-activation is a sum of three linear pieces and a bias,
      pre h = W1[h, 0:19] · [off n | vd n]  +  W1[h, 19:36] · [cvd m | conf m]  +  W1[h, 36:39] · dist n m  +  b1 h,
  with `dist n m k = (coords n k + off n k) - cc m k`; the logit is `(∑ h, max (pre h) 0 * W2 h) + b2`, clipped to
  `[-10, 10]`, and pairs whose batch ids differ are masked to `-∞`. The kernel groups the sum as
  (voxel part, split 3 + 16) + (centroid part, split 16 + 1, plus the bias) + (distance part, term by term); the
  reference as (19-wide voxel product) + (17-wide centroid product) + (3-wide distance product) + bias. The extended
  reals are a commutative additive monoid, so the two groupings are one value with no finiteness needed.
-/
import Idealize.ShloMosaic.PureOps.Ideal
import Idealize.ShloMosaic.PureOps.Ideal.Laws
import Idealize.ShloMosaic.Lib.ValueIdx
import Mathlib.Algebra.BigOperators.Fin
import Mathlib.Tactic.Abel

noncomputable section

namespace Affinity

open Idealize.ShloMosaic Idealize.ShloMosaic.ValueIdx

abbrev SNxD : Shape := ⟨2, ![60000, 16]⟩
abbrev SMx1 : Shape := ⟨2, ![96, 1]⟩
abbrev SNx3 : Shape := ⟨2, ![60000, 3]⟩
abbrev SHxC : Shape := ⟨2, ![19, 39]⟩
abbrev SH : Shape := ⟨1, ![19]⟩
abbrev S1xH : Shape := ⟨2, ![1, 19]⟩
abbrev S1 : Shape := ⟨1, ![1]⟩
abbrev SN : Shape := ⟨1, ![60000]⟩
abbrev SM : Shape := ⟨1, ![96]⟩
abbrev SMxD : Shape := ⟨2, ![96, 16]⟩
abbrev SMx3 : Shape := ⟨2, ![96, 3]⟩
abbrev SNxM : Shape := ⟨2, ![60000, 96]⟩

/-- The arrays the head reads: the nine arguments that enter the arithmetic, and the three centroid tables both
    programs gather from them at the peak indices by the same host operations (voxel descriptors, coordinates as
    floats, batch ids at the peaks). -/
structure Data where
  vd : FVec Ideal SNxD .f32
  conf : FVec Ideal SMx1 .f32
  off : FVec Ideal SNx3 .f32
  W1 : FVec Ideal SHxC .f32
  b1 : FVec Ideal SH .f32
  W2 : FVec Ideal S1xH .f32
  b2 : FVec Ideal S1 .f32
  coords : IVec SNx3 32
  bid : IVec SN 32
  cvd : FVec Ideal SMxD .f32
  cc : FVec Ideal SMx3 .f32
  bp : IVec SM 32

/-- The clip bounds and the mask value, as the words both programs print. -/
abbrev hi : EReal := Ideal.ofBits .f32 0x41200000#32
abbrev lo : EReal := Ideal.ofBits .f32 0xC1200000#32
abbrev masked : EReal := Ideal.ofBits .f32 0xFF800000#32

/-- `jnp.clip x (-10) 10`: the lower bound first, then the upper. -/
def clip (x : EReal) : EReal := min hi (max lo x)

/-- One coordinate of the voxel-to-centroid displacement: the integer coordinate read as a number, moved by the
    predicted offset, minus the centroid's coordinate. -/
def dist (co : BitVec 32) (off cc : EReal) : EReal := ((FloatOps.sitofp .f32 co : Ideal .f32) + off) - cc

/-- From the nineteen pre-activations to the output entry: relu, the weighted sum with `W2`, the bias, the clip, and
    the mask on the batch ids. -/
def fin (pre : Fin 19 → EReal) (w2 : Fin 19 → EReal) (b2 : EReal) (bn bm : BitVec 32) : EReal :=
  Scalar.select (IntOp.cmpi .eq bn bm) (clip ((∑ h : Fin 19, max (pre h) 0 * w2 h) + b2)) masked

/-! ## The kernel's grouping -/

/-- The pre-activation as the kernel groups it, from one voxel row, one centroid row and the weight blocks. -/
def preK (off : Fin 3 → EReal) (vd : Fin 16 → EReal) (co : Fin 3 → BitVec 32) (cc : Fin 3 → EReal) (tc : Fin 19 → EReal)
    (Woff : Fin 19 → Fin 3 → EReal) (Wdesc : Fin 19 → Fin 16 → EReal) (Wdist : Fin 19 → Fin 3 → EReal) (h : Fin 19) : EReal :=
  (((∑ k : Fin 3, off k * Woff h k) + (∑ k : Fin 16, vd k * Wdesc h k)) + tc h)
    + ((dist (co 0) (off 0) (cc 0) * Wdist h 0 + dist (co 1) (off 1) (cc 1) * Wdist h 1) + dist (co 2) (off 2) (cc 2) * Wdist h 2)

/-- One output entry as the kernel computes it from its blocks' rows. -/
def cellK (off : Fin 3 → EReal) (vd : Fin 16 → EReal) (co : Fin 3 → BitVec 32) (cc : Fin 3 → EReal) (tc : Fin 19 → EReal)
    (Woff : Fin 19 → Fin 3 → EReal) (Wdesc : Fin 19 → Fin 16 → EReal) (Wdist : Fin 19 → Fin 3 → EReal)
    (w2 : Fin 19 → EReal) (b2 : EReal) (bn bm : BitVec 32) : EReal :=
  fin (preK off vd co cc tc Woff Wdesc Wdist) w2 b2 bn bm

/-- The centroid term the kernel's host code prepares: descriptor part, confidence part, bias. -/
def tcK (D : Data) (m : Fin 96) (h : Fin 19) : EReal :=
  ((∑ k : Fin 16, D.cvd (ix2 m k) * D.W1 (ix2 h ⟨19 + k.val, by have := k.isLt; omega⟩))
    + (∑ k : Fin 1, D.conf (ix2 m k) * D.W1 (ix2 h ⟨35 + k.val, by have := k.isLt; omega⟩))) + D.b1 (ix1 h)

/-- The whole output array in the kernel's grouping. -/
def outK (D : Data) : FVec Ideal SNxM .f32 := fun i =>
  cellK (fun k => D.off (ix2 (i 0) k)) (fun k => D.vd (ix2 (i 0) k)) (fun k => D.coords (ix2 (i 0) k))
    (fun k => D.cc (ix2 (i 1) k)) (tcK D (i 1))
    (fun h k => D.W1 (ix2 h ⟨k.val, by have := k.isLt; omega⟩))
    (fun h k => D.W1 (ix2 h ⟨3 + k.val, by have := k.isLt; omega⟩))
    (fun h k => D.W1 (ix2 h ⟨36 + k.val, by have := k.isLt; omega⟩))
    (fun h => D.W2 (ix2 0 h)) (D.b2 (ix1 0)) (D.bid (ix1 (i 0))) (D.bp (ix1 (i 1)))

/-! ## The reference's grouping -/

/-- Row `n` of `[offsets | voxel_desc]`. -/
def vfull (D : Data) (n : Fin 60000) (k : Fin 19) : EReal :=
  if h : k.val < 3 then D.off (ix2 n ⟨k.val, h⟩) else D.vd (ix2 n ⟨k.val - 3, by have := k.isLt; omega⟩)

/-- Row `m` of `[voxel_desc at the peak | confidence]`. -/
def cdesc (D : Data) (m : Fin 96) (k : Fin 17) : EReal :=
  if h : k.val < 16 then D.cvd (ix2 m ⟨k.val, h⟩) else D.conf (ix2 m ⟨k.val - 16, by have := k.isLt; omega⟩)

/-- The pre-activation as the reference groups it. -/
def preR (D : Data) (n : Fin 60000) (m : Fin 96) (h : Fin 19) : EReal :=
  (((∑ k : Fin 19, vfull D n k * D.W1 (ix2 h ⟨k.val, by have := k.isLt; omega⟩))
      + (∑ k : Fin 17, cdesc D m k * D.W1 (ix2 h ⟨19 + k.val, by have := k.isLt; omega⟩)))
    + (∑ k : Fin 3, dist (D.coords (ix2 n k)) (D.off (ix2 n k)) (D.cc (ix2 m k)) * D.W1 (ix2 h ⟨36 + k.val, by have := k.isLt; omega⟩)))
  + D.b1 (ix1 h)

/-- The whole output array in the reference's grouping. -/
def outR (D : Data) : FVec Ideal SNxM .f32 := fun i =>
  fin (preR D (i 0) (i 1)) (fun h => D.W2 (ix2 0 h)) (D.b2 (ix1 0)) (D.bid (ix1 (i 0))) (D.bp (ix1 (i 1)))

/-! ## The two groupings are one value -/

/-- The 19-wide voxel product splits at column 3 into the offset and descriptor products. -/
theorem sum_vfull (D : Data) (n : Fin 60000) (h : Fin 19) :
    (∑ k : Fin 19, vfull D n k * D.W1 (ix2 h ⟨k.val, by have := k.isLt; omega⟩))
      = (∑ k : Fin 3, D.off (ix2 n k) * D.W1 (ix2 h ⟨k.val, by have := k.isLt; omega⟩))
        + (∑ k : Fin 16, D.vd (ix2 n k) * D.W1 (ix2 h ⟨3 + k.val, by have := k.isLt; omega⟩)) := by
  refine (Fin.sum_univ_add (a := 3) (b := 16)
    (fun k : Fin (3 + 16) => vfull D n k * D.W1 (ix2 h ⟨k.val, by have := k.isLt; omega⟩))).trans ?_
  refine congrArg₂ (· + ·) (Finset.sum_congr rfl fun k _ => ?_) (Finset.sum_congr rfl fun k _ => ?_)
  · have hk : (Fin.castAdd 16 k).val < 3 := k.isLt
    simp only [vfull, dif_pos hk]
    rfl
  · have hk : ¬ (Fin.natAdd 3 k).val < 3 := by simp [Fin.coe_natAdd]
    simp only [vfull, dif_neg hk]
    congr 2
    congr 1
    exact Fin.ext (by simp [Fin.coe_natAdd])

/-- The 17-wide centroid product splits at column 16 into the descriptor and confidence products. -/
theorem sum_cdesc (D : Data) (m : Fin 96) (h : Fin 19) :
    (∑ k : Fin 17, cdesc D m k * D.W1 (ix2 h ⟨19 + k.val, by have := k.isLt; omega⟩))
      = (∑ k : Fin 16, D.cvd (ix2 m k) * D.W1 (ix2 h ⟨19 + k.val, by have := k.isLt; omega⟩))
        + (∑ k : Fin 1, D.conf (ix2 m k) * D.W1 (ix2 h ⟨35 + k.val, by have := k.isLt; omega⟩)) := by
  refine (Fin.sum_univ_add (a := 16) (b := 1)
    (fun k : Fin (16 + 1) => cdesc D m k * D.W1 (ix2 h ⟨19 + k.val, by have := k.isLt; omega⟩))).trans ?_
  refine congrArg₂ (· + ·) (Finset.sum_congr rfl fun k _ => ?_) (Finset.sum_congr rfl fun k _ => ?_)
  · have hk : (Fin.castAdd 1 k).val < 16 := k.isLt
    simp only [cdesc, dif_pos hk]
    rfl
  · have hk : ¬ (Fin.natAdd 16 k).val < 16 := by simp [Fin.coe_natAdd]
    simp only [cdesc, dif_neg hk]
    congr 2
    · congr 1
      exact Fin.ext (by simp [Fin.coe_natAdd])
    · congr 1
      exact Fin.ext (by simp [Fin.coe_natAdd])

/-- Entry by entry the kernel's grouping of the pre-activation is the reference's. -/
theorem preK_eq_preR (D : Data) (n : Fin 60000) (m : Fin 96) (h : Fin 19) :
    preK (fun k => D.off (ix2 n k)) (fun k => D.vd (ix2 n k)) (fun k => D.coords (ix2 n k))
      (fun k => D.cc (ix2 m k)) (tcK D m)
      (fun h k => D.W1 (ix2 h ⟨k.val, by have := k.isLt; omega⟩))
      (fun h k => D.W1 (ix2 h ⟨3 + k.val, by have := k.isLt; omega⟩))
      (fun h k => D.W1 (ix2 h ⟨36 + k.val, by have := k.isLt; omega⟩)) h
    = preR D n m h := by
  unfold preK preR tcK
  rw [sum_vfull, sum_cdesc]
  simp only [Fin.sum_univ_three, Fin.isValue, Fin.val_zero, Fin.val_one, Fin.val_two]
  abel

theorem outK_eq_outR (D : Data) : outK D = outR D := by
  funext i
  simp only [outK, outR, cellK]
  congr 1
  funext h
  exact preK_eq_preR D (i 0) (i 1) h

end Affinity

end
-- ==== Proof.KerData.lean ====
/-
  The arrays of the specification, from the kernel program's arguments: the nine arguments as they are, and the three
  centroid tables by the host operations @main applies before the region (the peak indices normalised as jnp does,
  then one gather each from the descriptors, the coordinates and the batch ids).
-/
import proofs.«143889_j7473243095301_1_alg».proof.Proof.Gen.KernelIdeal
import proofs.«143889_j7473243095301_1_alg».proof.Proof.Spec

noncomputable section

namespace Cert.KernelIdeal.Hand

open Cert.KernelIdeal Idealize.ShloMosaic Idealize.ShloMosaic.TcCoe
open Cert.KernelIdeal.Facts₀

/-- jnp's index normalisation (a negative index counts from the end), then the index column. -/
def pidx (a9 : IVec S96 32) : IVec S96x1 32 :=
  broadcastInDim S96x1 ![0] bcast_S96_S96x1_0
    (select (cmpi .slt a9 (broadcastInDim S96 ![] bcast_S_S96 (constantI S_ 32 0#32)))
      (addi a9 (broadcastInDim S96 ![] bcast_S_S96 (constantI S_ 32 60000#32))) a9)

/-- The specification's arrays from the ten arguments. -/
def kdata (a0 : FVec Ideal S60000x16 .f32) (a1 : FVec Ideal S96x1 .f32) (a2 : FVec Ideal S60000x3 .f32) (a3 : FVec Ideal S19x39 .f32)
    (a4 : FVec Ideal S19 .f32) (a5 : FVec Ideal S1x19 .f32) (a6 : FVec Ideal S1 .f32) (a7 : IVec S60000x3 32) (a8 : IVec S60000 32)
    (a9 : IVec S96 32) : Affinity.Data where
  vd := a0
  conf := a1
  off := a2
  W1 := a3
  b1 := a4
  W2 := a5
  b2 := a6
  coords := a7
  bid := a8
  cvd := Host.gather gather_S60000x16_S96x1_S96x16_1_0_n_n_0_1_116 a0 (pidx a9)
  cc := sitofp .f32 (Host.gather gather_S60000x3_S96x1_S96x3_1_0_n_n_0_1_13 a7 (pidx a9))
  bp := Host.gather gather_S60000_S96x1_S96_n_0_n_n_0_1_1 a8 (pidx a9)

/-- The same from a memory: device `c`'s argument buffers. -/
abbrev memData (m : (ℓ : Loc nD τ sig) → Buf (Elt Ideal) ℓ) (c : Dev nD) : Affinity.Data :=
  kdata (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

end Cert.KernelIdeal.Hand

end
-- ==== Proof.KerCell.lean ====
/-
  One entry of the kernel body's result block, from the rows of its input blocks.

  The body computes, for voxel `p` and centroid `q` of its blocks, nineteen hidden pre-activations
      (offsets · Woff[h] + descriptors · Wdesc[h]) + centroid term (q, h) + ((0 + d0 · Wdist[h,0]) + d1 · Wdist[h,1]) + d2 · Wdist[h,2],
  with `d_k = (coordinate k of p, read as a number, + offset k of p) − coordinate k of q`; then the relu, the sum over
  `h` against `W2`'s row plus `b2`, the clip to `[-10, 10]`, and the mask where the batch ids of `p` and `q` differ.
  Every operation between the loads and the store is either pointwise, or a layout operation (read at one index of its
  operand), or one of two products contracting one axis (a finite sum), or the sum along the hidden axis. Read at
  `(p, q)` the stored value is therefore the specification's kernel-form entry: the two zero words vanish
  (`0 + x = x`), and the guard "the clipped value differs from itself" is never set on a linear order.
-/
import proofs.«143889_j7473243095301_1_alg».proof.Proof.Gen.KernelIdeal.Frame
import proofs.«143889_j7473243095301_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx

/-! ## Layout operations read at an index

A layout operation moves values and computes none: read at an index given by coordinates, it is its operand at ONE
index. The forms this body meets: a cast that puts a unit axis in the MIDDLE or drops a TRAILING one (the row-major
position is unchanged, a unit coordinate adding nothing to it); a broadcast along a middle, a trailing or two leading
unit axes (the operand is read at `0` there and at the same coordinate elsewhere); a cut of a rank-3 array along its
last axis (the cut coordinate is shifted by the offset). -/

section Layout
variable {α : Type}

/-- An `[a, b]` array cast to `[a, 1, b]` reads, at `(i, u, j)`, the operand at `(i, j)`: the unit coordinate
    contributes nothing to the row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1]` column cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]
    simp only [Nat.zero_mul, Nat.zero_add])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An `[a, 1]` column broadcast to `[a, b]` reads, at `(i, j)`, the operand at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A rank-3 array cut along its LAST axis from `o` reads, at `(a, b, j)`, the source at `(a, b, k)` with `k = o + j`. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Layout

/-! ## The two products of the voxel part, read at an index -/

/-- The operand indices of the offsets' product at output `(p, h)` and contraction index `q`: the left operand's are
    `(p, q)`, the right operand's `(q, h)`; one fact per axis, at the literal axes. -/
theorem lhsOff_0 (i : S1000x19.Idx) (q : dot_S1000x3_S3x19_S1000x19_1_0_0_1_n_n.contr.Idx) :
    (dot_S1000x3_S3x19_S1000x19_1_0_0_1_n_n.lhsIdx i q 0).val = (i 0).val := by
  unfold DotDims.lhsIdx
  rw [dif_neg (show ¬(0 : Fin S1000x3.rank) ∈ dot_S1000x3_S3x19_S1000x19_1_0_0_1_n_n.lhsBatch by decide),
    dif_pos (show (0 : Fin S1000x3.rank) ∈ dot_S1000x3_S3x19_S1000x19_1_0_0_1_n_n.lhsNonContracting by decide)]
  rfl
theorem lhsOff_1 (i : S1000x19.Idx) (q : dot_S1000x3_S3x19_S1000x19_1_0_0_1_n_n.contr.Idx) :
    (dot_S1000x3_S3x19_S1000x19_1_0_0_1_n_n.lhsIdx i q 1).val = (q ⟨0, by decide⟩).val :=
  dot_S1000x3_S3x19_S1000x19_1_0_0_1_n_n.lhsIdx_val_of_single rfl i q
theorem rhsOff_0 (i : S1000x19.Idx) (q : dot_S1000x3_S3x19_S1000x19_1_0_0_1_n_n.contr.Idx) :
    (dot_S1000x3_S3x19_S1000x19_1_0_0_1_n_n.rhsIdx i q 0).val = (q ⟨0, by decide⟩).val :=
  dot_S1000x3_S3x19_S1000x19_1_0_0_1_n_n.rhsIdx_val_of_single rfl i q
theorem rhsOff_1 (i : S1000x19.Idx) (q : dot_S1000x3_S3x19_S1000x19_1_0_0_1_n_n.contr.Idx) :
    (dot_S1000x3_S3x19_S1000x19_1_0_0_1_n_n.rhsIdx i q 1).val = (i 1).val := by
  unfold DotDims.rhsIdx
  rw [dif_neg (show ¬(1 : Fin S3x19.rank) ∈ dot_S1000x3_S3x19_S1000x19_1_0_0_1_n_n.rhsBatch by decide),
    dif_pos (show (1 : Fin S3x19.rank) ∈ dot_S1000x3_S3x19_S1000x19_1_0_0_1_n_n.rhsNonContracting by decide)]
  rfl

/-- The offsets' product into the zero accumulator, at `(p, h)`: the sum over the three coordinates. -/
theorem matmulOff_apply (l : FVec Ideal S1000x3 .f32) (r : FVec Ideal S3x19 .f32) (p : Fin 1000) (h : Fin 19) :
    matmul dot_S1000x3_S3x19_S1000x19_1_0_0_1_n_n none l r (constant (F := Ideal) S1000x19 .f32 0x00000000#32) (ix2 p h)
      = ∑ k : Fin 3, l (ix2 p k) * r (ix2 k h) := by
  simp only [matmul]
  rw [Ideal.matmul_constant_zero_apply,
    ← Equiv.sum_comp (contrEquiv1 dot_S1000x3_S3x19_S1000x19_1_0_0_1_n_n 3 rfl rfl).symm]
  refine Finset.sum_congr rfl fun k _ => ?_
  have hk := contrEquiv1_symm_val dot_S1000x3_S3x19_S1000x19_1_0_0_1_n_n 3 rfl rfl k
  have el : dot_S1000x3_S3x19_S1000x19_1_0_0_1_n_n.lhsIdx (ix2 p h)
      ((contrEquiv1 dot_S1000x3_S3x19_S1000x19_1_0_0_1_n_n 3 rfl rfl).symm k) = ix2 p k :=
    funext fun a => Fin.ext (by
      match a with
      | ⟨0, _⟩ => exact lhsOff_0 _ _
      | ⟨1, _⟩ => exact (lhsOff_1 _ _).trans hk)
  have er : dot_S1000x3_S3x19_S1000x19_1_0_0_1_n_n.rhsIdx (ix2 p h)
      ((contrEquiv1 dot_S1000x3_S3x19_S1000x19_1_0_0_1_n_n 3 rfl rfl).symm k) = ix2 k h :=
    funext fun a => Fin.ext (by
      match a with
      | ⟨0, _⟩ => exact (rhsOff_0 _ _).trans hk
      | ⟨1, _⟩ => exact rhsOff_1 _ _)
  rw [el, er]

/-- The same four facts for the descriptors' product: left operand at `(p, q)`, right operand at `(q, h)`. -/
theorem lhsDesc_0 (i : S1000x19.Idx) (q : dot_S1000x16_S16x19_S1000x19_1_0_0_1_n_n.contr.Idx) :
    (dot_S1000x16_S16x19_S1000x19_1_0_0_1_n_n.lhsIdx i q 0).val = (i 0).val := by
  unfold DotDims.lhsIdx
  rw [dif_neg (show ¬(0 : Fin S1000x16.rank) ∈ dot_S1000x16_S16x19_S1000x19_1_0_0_1_n_n.lhsBatch by decide),
    dif_pos (show (0 : Fin S1000x16.rank) ∈ dot_S1000x16_S16x19_S1000x19_1_0_0_1_n_n.lhsNonContracting by decide)]
  rfl
theorem lhsDesc_1 (i : S1000x19.Idx) (q : dot_S1000x16_S16x19_S1000x19_1_0_0_1_n_n.contr.Idx) :
    (dot_S1000x16_S16x19_S1000x19_1_0_0_1_n_n.lhsIdx i q 1).val = (q ⟨0, by decide⟩).val :=
  dot_S1000x16_S16x19_S1000x19_1_0_0_1_n_n.lhsIdx_val_of_single rfl i q
theorem rhsDesc_0 (i : S1000x19.Idx) (q : dot_S1000x16_S16x19_S1000x19_1_0_0_1_n_n.contr.Idx) :
    (dot_S1000x16_S16x19_S1000x19_1_0_0_1_n_n.rhsIdx i q 0).val = (q ⟨0, by decide⟩).val :=
  dot_S1000x16_S16x19_S1000x19_1_0_0_1_n_n.rhsIdx_val_of_single rfl i q
theorem rhsDesc_1 (i : S1000x19.Idx) (q : dot_S1000x16_S16x19_S1000x19_1_0_0_1_n_n.contr.Idx) :
    (dot_S1000x16_S16x19_S1000x19_1_0_0_1_n_n.rhsIdx i q 1).val = (i 1).val := by
  unfold DotDims.rhsIdx
  rw [dif_neg (show ¬(1 : Fin S16x19.rank) ∈ dot_S1000x16_S16x19_S1000x19_1_0_0_1_n_n.rhsBatch by decide),
    dif_pos (show (1 : Fin S16x19.rank) ∈ dot_S1000x16_S16x19_S1000x19_1_0_0_1_n_n.rhsNonContracting by decide)]
  rfl

/-- The descriptors' product into the zero accumulator, at `(p, h)`: the sum over the sixteen channels. -/
theorem matmulDesc_apply (l : FVec Ideal S1000x16 .f32) (r : FVec Ideal S16x19 .f32) (p : Fin 1000) (h : Fin 19) :
    matmul dot_S1000x16_S16x19_S1000x19_1_0_0_1_n_n none l r (constant (F := Ideal) S1000x19 .f32 0x00000000#32) (ix2 p h)
      = ∑ k : Fin 16, l (ix2 p k) * r (ix2 k h) := by
  simp only [matmul]
  rw [Ideal.matmul_constant_zero_apply,
    ← Equiv.sum_comp (contrEquiv1 dot_S1000x16_S16x19_S1000x19_1_0_0_1_n_n 16 rfl rfl).symm]
  refine Finset.sum_congr rfl fun k _ => ?_
  have hk := contrEquiv1_symm_val dot_S1000x16_S16x19_S1000x19_1_0_0_1_n_n 16 rfl rfl k
  have el : dot_S1000x16_S16x19_S1000x19_1_0_0_1_n_n.lhsIdx (ix2 p h)
      ((contrEquiv1 dot_S1000x16_S16x19_S1000x19_1_0_0_1_n_n 16 rfl rfl).symm k) = ix2 p k :=
    funext fun a => Fin.ext (by
      match a with
      | ⟨0, _⟩ => exact lhsDesc_0 _ _
      | ⟨1, _⟩ => exact (lhsDesc_1 _ _).trans hk)
  have er : dot_S1000x16_S16x19_S1000x19_1_0_0_1_n_n.rhsIdx (ix2 p h)
      ((contrEquiv1 dot_S1000x16_S16x19_S1000x19_1_0_0_1_n_n 16 rfl rfl).symm k) = ix2 k h :=
    funext fun a => Fin.ext (by
      match a with
      | ⟨0, _⟩ => exact (rhsDesc_0 _ _).trans hk
      | ⟨1, _⟩ => exact rhsDesc_1 _ _)
  rw [el, er]

/-- The voxel part at `(p, h)`: row `p` of the offsets against row `h` of their weight block, plus row `p` of the
    descriptors against row `h` of theirs (each weight block enters transposed, so its row `h` is read). -/
theorem pay2_apply (v0 : Vec Ideal S1000x3 .f32) (v1 : Vec Ideal S1000x16 .f32) (v6 : Vec Ideal S19x3 .f32)
    (v10 : Vec Ideal S19x16 .f32) (p : Fin 1000) (h : Fin 19) :
    k0_pay2 v0 v1 v6 v10 (ix2 p h)
      = (∑ k : Fin 3, v0 (ix2 p k) * v6 (ix2 h k)) + (∑ k : Fin 16, v1 (ix2 p k) * v10 (ix2 h k)) := by
  unfold k0_pay2
  rw [addf_apply, matmulOff_apply, matmulDesc_apply]
  simp only [shapeCast_self]
  refine congrArg₂ (· + ·) (Finset.sum_congr rfl fun k _ => ?_) (Finset.sum_congr rfl fun k _ => ?_)
  · exact congrArg (v0 (ix2 p k) * ·) (transpose_ix2_apply v6 _ k h)
  · exact congrArg (v1 (ix2 p k) * ·) (transpose_ix2_apply v10 _ k h)

/-! ## The displacement and the distance part's factors, read at an index -/

/-- The displacement at `(p, q, k)`: voxel `p`'s coordinate `k` read as a number and moved by its offset (a row
    of the voxel blocks, repeated over the centroids), minus centroid `q`'s coordinate `k` (a row of the centroid
    block, repeated over the voxels). -/
theorem pay3_apply (v0 : Vec Ideal S1000x3 .f32) (v2 : Vec Ideal S1000x3 .i32) (v16 : Vec Ideal S96x3 .f32)
    (p : Fin 1000) (q : Fin 96) (k : Fin 3) :
    k0_pay3 v0 v2 v16 (ix3 p q k) = Affinity.dist (v2 (ix2 p k)) (v0 (ix2 p k)) (v16 (ix2 q k)) := by
  unfold k0_pay3
  rw [subf_apply, broadcastTo_a1c_abc_apply, broadcastTo_1bc_abc_apply, shapeCast_ab_a1b_apply,
    shapeCast_ab_1ab_apply, shapeCast_self, addf_apply, sitofp_apply]
  rfl

/-- The distance weights pass through a cast to their own shape unchanged. -/
theorem pay4_eq (v23 : Vec Ideal S19x3 .f32) : k0_pay4 v23 = v23 := by
  unfold k0_pay4
  exact shapeCast_self _ _

/-- Column `c` of the distance weights, laid along the hidden axis and repeated over voxels and centroids, at
    `(p, q, h)`: the weight at `(h, c)`. -/
theorem weightCol_apply (w : FVec Ideal S19x3 .f32) (c : Nat) (hs : S19x3.Slices ![0, c] S19x1) (c' : Fin 3)
    (hc : c'.val = c) (p : Fin 1000) (q : Fin 96) (h : Fin 19) :
    broadcastTo S1000x96x19
        (shapeCast S1x1x19 (shapeCast S19 (extractStridedSlice S19x1 ![0, c] w hs) shapeCasts_S19x1_S19)
          shapeCasts_S19_S1x1x19) broadcasts_S1x1x19_S1000x96x19 (ix3 p q h)
      = w (ix2 h c') := by
  rw [broadcastTo_11c_abc_apply, shapeCast_a_11a_apply, shapeCast_a1_a_apply]
  exact slice2_axis1_apply c w hs h (0 : Fin 1) c' (by rw [hc]; rfl)

/-- Coordinate `c` of an array over (voxel, centroid, coordinate), repeated along the hidden axis, at `(p, q, h)`:
    the array at `(p, q, c)`. -/
theorem distCol_apply (d : FVec Ideal S1000x96x3 .f32) (c : Nat) (hs : S1000x96x3.Slices ![0, 0, c] S1000x96x1)
    (c' : Fin 3) (hc : c'.val = c) (p : Fin 1000) (q : Fin 96) (h : Fin 19) :
    broadcastTo S1000x96x19 (extractStridedSlice S1000x96x1 ![0, 0, c] d hs) broadcasts_S1000x96x1_S1000x96x19
        (ix3 p q h) = d (ix3 p q c') := by
  rw [broadcastTo_ab1_abc_apply]
  exact slice3_axis2_apply c d hs p q (0 : Fin 1) c' (by rw [hc]; rfl)

/-- The first term of the distance part at `(p, q, h)`: the zero splat it is added to vanishes. -/
theorem pay5_apply (v0 : Vec Ideal S1000x3 .f32) (v2 : Vec Ideal S1000x3 .i32) (v16 : Vec Ideal S96x3 .f32)
    (v23 : Vec Ideal S19x3 .f32) (p : Fin 1000) (q : Fin 96) (h : Fin 19) :
    k0_pay5 v0 v2 v16 v23 (ix3 p q h)
      = Affinity.dist (v2 (ix2 p 0)) (v0 (ix2 p 0)) (v16 (ix2 q 0)) * v23 (ix2 h 0) := by
  unfold k0_pay5
  rw [addf_apply, mulf_apply, broadcast_apply, distCol_apply _ 0 _ 0 rfl, weightCol_apply _ 0 _ 0 rfl, pay3_apply,
    pay4_eq]
  show Ideal.ofBits .f32 0x00000000#32 + _ = _
  rw [Ideal.ofBits_zero_f32, zero_add]

/-- The second displacement coordinate, repeated along the hidden axis. -/
theorem pay6_apply (v0 : Vec Ideal S1000x3 .f32) (v2 : Vec Ideal S1000x3 .i32) (v16 : Vec Ideal S96x3 .f32)
    (p : Fin 1000) (q : Fin 96) (h : Fin 19) :
    k0_pay6 v0 v2 v16 (ix3 p q h) = Affinity.dist (v2 (ix2 p 1)) (v0 (ix2 p 1)) (v16 (ix2 q 1)) := by
  unfold k0_pay6
  rw [distCol_apply _ 1 _ 1 rfl, pay3_apply]

/-- The second column of the distance weights, laid along the hidden axis. -/
theorem pay7_apply (v23 : Vec Ideal S19x3 .f32) (p : Fin 1000) (q : Fin 96) (h : Fin 19) :
    k0_pay7 v23 (ix3 p q h) = v23 (ix2 h 1) := by
  unfold k0_pay7
  rw [weightCol_apply _ 1 _ 1 rfl, pay4_eq]

/-! ## The assembly: relu, the lane sum, the clip and the two selects -/

/-- An integer comparison of two vectors reads, at an index, the comparison of their entries there. -/
theorem cmpi_apply {s : Shape} {w : Nat} (pr : CmpIPredicate) (x y : IVec s w) (i : s.Idx) :
    cmpi pr x y i = IntOp.cmpi pr (x i) (y i) := rfl

/-- A number is never unequal to itself, so the guard on the clipped logit is clear. -/
theorem cmp_one_self (c : EReal) : Ideal.cmp .one c c = 0#1 := by
  simp [Ideal.cmp]

/-- The sum along the hidden axis into the zero word, at `(p, q)`: the sum over `h` of the source at `(p, q, h)`. -/
theorem laneSum_apply (src : FVec Ideal S1000x96x19 .f32) (p : Fin 1000) (q : Fin 96) :
    multiReduction (F := Ideal) .add [2] S1000x96 src 0x00000000#32 reduces_S1000x96x19_S1000x96 (.inl rfl) rfl (ix2 p q)
      = ∑ h : Fin 19, src (ix3 p q h) := by
  refine (Ideal.multiReduction_add_single src 0x00000000#32 reduces_S1000x96x19_S1000x96 (.inl rfl) rfl (ix2 p q)).trans ?_
  refine Finset.sum_congr rfl fun h _ => congrArg src ?_
  funext c
  match c with
  | ⟨0, _⟩ => rfl
  | ⟨1, _⟩ => rfl
  | ⟨2, _⟩ => rfl

/-- The one entry of the bias block. -/
theorem biasEntry (v65 : Vec Ideal S1x1 .f32) (hpos : ∀ a, (![0, 0] : Fin 2 → Nat) a < S1x1.size a) :
    extractAt ![0, 0] v65 hpos = v65 (ix2 0 0) := by
  unfold extractAt
  exact congrArg v65 (funext fun a => match a with | ⟨0, _⟩ => rfl | ⟨1, _⟩ => rfl)

/-- The last payload at `(p, q)`, over its eleven operands read at the indices that entry depends on: the hidden
    axis is summed (into the zero word) after the relu and the product with `W2`'s row; the bias is the one entry
    of its block; the clipped value passes the self-comparison guard; the batch ids decide between it and the mask. -/
theorem pay8_apply (v5 : IVec S1000x1 32) (v14 : FVec Ideal S1000x19 .f32) (v22 : FVec Ideal S1000x96x3 .f32)
    (v24 : FVec Ideal S19x3 .f32) (v33 v38 v39 : FVec Ideal S1000x96x19 .f32) (v50 : Vec Ideal S96x19 .f32)
    (v60 : Vec Ideal S1x19 .f32) (v65 : Vec Ideal S1x1 .f32) (v76 : Vec Ideal S1x96 .i32) (p : Fin 1000) (q : Fin 96) :
    k0_pay8 v5 v14 v22 v24 v33 v38 v39 v50 v60 v65 v76 (ix2 p q)
      = Scalar.select (IntOp.cmpi .eq (v5 (ix2 p 0)) (v76 (ix2 0 q)))
          (Affinity.clip ((∑ h : Fin 19,
              max ((v14 (ix2 p h) + v50 (ix2 q h))
                  + ((v33 (ix3 p q h) + v38 (ix3 p q h) * v39 (ix3 p q h)) + v22 (ix3 p q 2) * v24 (ix2 h 2))) 0
                * v60 (ix2 0 h)) + v65 (ix2 0 0)))
          Affinity.masked := by
  unfold k0_pay8
  simp only [select_apply, cmpi_apply, cmpf_apply, minimumf_apply, maximumf_apply, addf_apply, broadcast_apply]
  rw [Ideal.cmpf_def, cmp_one_self, select_zero, laneSum_apply, biasEntry, broadcastTo_a1_ab_apply,
    broadcastTo_1b_ab_apply, shapeCast_self]
  show Scalar.select _ (Affinity.clip (_ + _)) Affinity.masked = _
  refine congrArg (fun s => Scalar.select _ (Affinity.clip (s + _)) Affinity.masked)
    (Finset.sum_congr rfl fun h _ => ?_)
  simp only [mulf_apply, maximumf_apply, addf_apply, broadcast_apply]
  rw [broadcastTo_a1c_abc_apply, shapeCast_ab_a1b_apply, broadcastTo_1bc_abc_apply, shapeCast_ab_1ab_apply,
    shapeCast_self, distCol_apply _ 2 _ 2 rfl, weightCol_apply _ 2 _ 2 rfl, broadcastTo_11c_abc_apply,
    shapeCast_ab_1ab_apply]
  show max _ (Ideal.ofBits .f32 0x00000000#32) * _ = _
  rw [Ideal.ofBits_zero_f32]

/-! ## The stored block, entry by entry -/

/-- The offsets of the body's rectangles are zero on both axes. -/
theorem rect_offsets_zero : (![0, 0] : Fin 2 → Nat) = fun _ => 0 := funext fun a => by
  match a with
  | ⟨0, _⟩ => rfl
  | ⟨1, _⟩ => rfl

/-- The batch ids of the voxel block pass through a cast to their own shape unchanged. -/
theorem pay1_eq (v4 : Vec Ideal S1000x1 .i32) : k0_pay1 (F := Ideal) v4 = v4 := by
  unfold k0_pay1
  exact shapeCast_self _ _

/-- Entry `(p, q)` of the block the body stores, as the specification's kernel-form entry of row `p` of the voxel
    blocks, row `q` of the centroid blocks, the three weight blocks, `W2`'s row and `b2`. -/
theorem out0_12_apply (x0 : Vec Ideal S1000x16 .f32) (x1 : Vec Ideal S1000x3 .f32) (x2 : Vec Ideal S1000x3 .i32)
    (x3 : Vec Ideal S1000x1 .i32) (x4 : Vec Ideal S96x3 .f32) (x5 : Vec Ideal S96x19 .f32) (x6 : Vec Ideal S1x96 .i32)
    (x7 : Vec Ideal S19x3 .f32) (x8 : Vec Ideal S19x16 .f32) (x9 : Vec Ideal S19x3 .f32) (x10 : Vec Ideal S1x19 .f32)
    (x11 : Vec Ideal S1x1 .f32) (p : Fin 1000) (q : Fin 96) :
    out0_12 (F := Ideal) x0 x1 x2 x3 x4 x5 x6 x7 x8 x9 x10 x11 (ix2 p q)
      = Affinity.cellK (fun k => x1 (ix2 p k)) (fun k => x0 (ix2 p k)) (fun k => x2 (ix2 p k)) (fun k => x4 (ix2 q k))
          (fun h => x5 (ix2 q h)) (fun h k => x7 (ix2 h k)) (fun h k => x8 (ix2 h k)) (fun h k => x9 (ix2 h k))
          (fun h => x10 (ix2 0 h)) (x11 (ix2 0 0)) (x3 (ix2 p 0)) (x6 (ix2 0 q)) := by
  unfold out0_12
  rw [View.canon_unit_zero rect_offsets_zero]
  simp only [View.ld_unit_zero (S := S1000x16) rect_offsets_zero, View.ld_unit_zero (S := S1000x3) rect_offsets_zero,
    View.ld_unit_zero (S := S1000x1) rect_offsets_zero, View.ld_unit_zero (S := S96x3) rect_offsets_zero,
    View.ld_unit_zero (S := S96x19) rect_offsets_zero, View.ld_unit_zero (S := S1x96) rect_offsets_zero,
    View.ld_unit_zero (S := S19x3) rect_offsets_zero, View.ld_unit_zero (S := S19x16) rect_offsets_zero,
    View.ld_unit_zero (S := S1x19) rect_offsets_zero, View.ld_unit_zero (S := S1x1) rect_offsets_zero]
  rw [pay8_apply, pay1_eq, pay4_eq]
  unfold Affinity.cellK Affinity.fin
  refine congrArg (fun s => Scalar.select _ (Affinity.clip (s + _)) Affinity.masked)
    (Finset.sum_congr rfl fun h _ => ?_)
  rw [pay2_apply, pay3_apply, pay5_apply, pay6_apply, pay7_apply]
  rfl

end Cert.KernelIdeal.Hand

end
-- ==== Proof.KerHost.lean ====
/-
  The arrays the kernel's windows stage that @main's host operations prepare before the region, read at an index:
  the batch ids as a column, the centroid coordinates, the centroid term (descriptor product, confidence product,
  bias), the centroid batch ids as a row, the three column blocks of `W1`, and `b2` as a one-by-one array.
-/
import proofs.«143889_j7473243095301_1_alg».proof.Proof.Gen.KernelIdeal.Frame
import proofs.«143889_j7473243095301_1_alg».proof.Proof.KerData
import Idealize.ShloMosaic.Lib.StableHlo.Run
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.KernelIdeal.Hand

open Cert.KernelIdeal Cert.KernelIdeal.Gen Idealize.ShloMosaic Idealize.ShloMosaic.TcCoe Idealize.ShloMosaic.ValueIdx

/-! ## The two products and the bias rows at an entry -/

/-- A 96×16 by 16×19 product at entry `(q, h)`: the sum over the sixteen contracted coordinates of the products of the
    entries (the dimension numbers are those of the plain matrix product). -/
theorem dot_96x16_16x19_apply (A : FVec Ideal S96x16 .f32) (B : FVec Ideal S16x19 .f32) (q : Fin 96) (h : Fin 19) :
    Host.dotGeneral (F := Ideal) dot_S96x16_S16x19_S96x19_1_0_0_1_n_n none A B (ix2 q h)
      = ∑ k : Fin 16, A (ix2 q k) * B (ix2 k h) :=
  StackMember.dotGeneral_plain_apply none A B q h

/-- A 96×1 by 1×19 product at entry `(q, h)`: the one product of the entries, as a sum over the single contracted
    coordinate. -/
theorem dot_96x1_1x19_apply (A : FVec Ideal S96x1 .f32) (B : FVec Ideal S1x19 .f32) (q : Fin 96) (h : Fin 19) :
    Host.dotGeneral (F := Ideal) dot_S96x1_S1x19_S96x19_1_0_0_1_n_n none A B (ix2 q h)
      = ∑ k : Fin 1, A (ix2 q k) * B (ix2 k h) :=
  StackMember.dotGeneral_plain_apply none A B q h

/-- A vector of 19 made a one-row matrix, that row then copied to each of 96 rows: entry `(q, h)` is the vector's
    entry `h` (the second broadcast reads row 0 of its unit axis, the first reads the vector along axis 1). -/
theorem bias_rows_apply (b : FVec Ideal S19 .f32) (q : Fin 96) (h : Fin 19) :
    broadcastInDim S96x19 ![0, 1] bcast_S1x19_S96x19_0_1 (broadcastInDim S1x19 ![1] bcast_S19_S1x19_1 b) (ix2 q h)
      = b (ix1 h) := by
  refine (broadcastInDim_apply _ _ _ (ix2 q h) (ix2 (0 : Fin 1) h) fun ax => ?_).trans
    (broadcastInDim_apply _ _ _ (ix2 (0 : Fin 1) h) (ix1 h) fun ax => ?_)
  · match ax with
    | ⟨0, _⟩ => rfl
    | ⟨1, _⟩ => rfl
  · match ax with
    | ⟨0, _⟩ => rfl

variable (m : (ℓ : Loc nD τ sig) → Buf (Elt Ideal) ℓ) (c : Dev nD)

/-- Window 3's array: the batch ids as a column. -/
theorem V_v35_apply (n : Fin 60000) :
    (V m c main_v35 : S60000x1.Idx → BitVec 32) (ix2 n 0) = (memData m c).bid (ix1 n) := by
  -- the array is the batch ids recast from [60000] to [60000, 1]
  have e : (V m c main_v35 : S60000x1.Idx → BitVec 32)
      = shapeCast S60000x1 (m ((c : Thread nD τ).loc main_arg8)) shapeCasts_S60000_S60000x1 := by
    dsimp only [Gen.V, Gen.hostOps0]; after_results <;> rfl
  rw [e]
  -- row-major positions agree: n = n * 1 + 0
  refine shapeCast_apply _ _ _ (ix1 n) ?_
  rw [Shape.rowMajor_val_two, Shape.rowMajor_val_one]
  show n.val = n.val * 1 + 0
  omega

/-- Window 4's array: the centroid coordinates as floats. -/
theorem V_v19_eq : (V m c main_v19 : S96x3.Idx → EReal) = (memData m c).cc := by
  -- the same operations as the specification's `cc`: the peak indices normalised, the gather of the coordinates, the
  -- signed integer-to-float conversion
  dsimp only [Gen.V, Gen.hostOps0]; after_results_simp <;> rfl

/-- Window 5's array: the centroid term. -/
theorem V_v34_apply (q : Fin 96) (h : Fin 19) :
    (V m c main_v34 : S96x19.Idx → EReal) (ix2 q h) = Affinity.tcK (memData m c) q h := by
  -- the array is (cvd · W1[:, 19:35]ᵀ + conf · W1[:, 35:36]ᵀ) + b1 over every row
  have e : (V m c main_v34 : S96x19.Idx → EReal)
      = addf (addf
          (Host.dotGeneral (F := Ideal) dot_S96x16_S16x19_S96x19_1_0_0_1_n_n none (memData m c).cvd
            (transpose S16x19 [1, 0] (extractStridedSlice S19x16 ![0, 19] (memData m c).W1 slices_S19x39_S19x16_0_19)
              transposes_S19x16_S16x19_1_0))
          (Host.dotGeneral (F := Ideal) dot_S96x1_S1x19_S96x19_1_0_0_1_n_n none (memData m c).conf
            (transpose S1x19 [1, 0] (extractStridedSlice S19x1 ![0, 35] (memData m c).W1 slices_S19x39_S19x1_0_35)
              transposes_S19x1_S1x19_1_0)))
        (broadcastInDim S96x19 ![0, 1] bcast_S1x19_S96x19_0_1
          (broadcastInDim S1x19 ![1] bcast_S19_S1x19_1 (memData m c).b1)) := by
    dsimp only [Gen.V, Gen.hostOps0]; after_results_simp <;> rfl
  rw [e, addf_apply, addf_apply, dot_96x16_16x19_apply, dot_96x1_1x19_apply, bias_rows_apply]
  unfold Affinity.tcK
  -- term by term: the transposed column block at (k, h) is W1 at (h, offset + k)
  refine congrArg₂ (· + ·)
    (congrArg₂ (· + ·) (Finset.sum_congr rfl fun k _ => ?_) (Finset.sum_congr rfl fun k _ => ?_)) rfl
  · rw [transpose_ix2_apply, slice2_axis1_eq]
  · rw [transpose_ix2_apply, slice2_axis1_eq]

/-- Window 6's array: the centroid batch ids as a row. -/
theorem V_v36_apply (q : Fin 96) :
    (V m c main_v36 : S1x96.Idx → BitVec 32) (ix2 0 q) = (memData m c).bp (ix1 q) := by
  -- the array is the specification's `bp` (the gather of the batch ids at the normalised peaks) recast from [96] to [1, 96]
  have e : (V m c main_v36 : S1x96.Idx → BitVec 32)
      = shapeCast S1x96 (memData m c).bp shapeCasts_S96_S1x96 := by
    dsimp only [Gen.V, Gen.hostOps0]; after_results_simp <;> rfl
  rw [e]
  exact shapeCast_a_1a_apply _ _ 0 q

/-- Window 7's array: columns 0 to 2 of `W1`. -/
theorem V_v0_apply (h : Fin 19) (k : Fin 3) :
    (V m c main_v0 : S19x3.Idx → EReal) (ix2 h k) = (memData m c).W1 (ix2 h ⟨k.val, by have := k.isLt; omega⟩) := by
  have e : (V m c main_v0 : S19x3.Idx → EReal)
      = extractStridedSlice S19x3 ![0, 0] (m ((c : Thread nD τ).loc main_arg3)) slices_S19x39_S19x3_0_0 := by
    dsimp only [Gen.V, Gen.hostOps0]; after_results
  rw [e]
  -- the cut starts at column 0: column k of the block is column 0 + k of W1
  exact slice2_axis1_apply 0 _ _ h k _ (Nat.zero_add _).symm

/-- Window 8's array: columns 3 to 18 of `W1`. -/
theorem V_v1_apply (h : Fin 19) (k : Fin 16) :
    (V m c main_v1 : S19x16.Idx → EReal) (ix2 h k) = (memData m c).W1 (ix2 h ⟨3 + k.val, by have := k.isLt; omega⟩) := by
  have e : (V m c main_v1 : S19x16.Idx → EReal)
      = extractStridedSlice S19x16 ![0, 3] (m ((c : Thread nD τ).loc main_arg3)) slices_S19x39_S19x16_0_3 := by
    dsimp only [Gen.V, Gen.hostOps0]; after_results
  rw [e]
  exact slice2_axis1_apply 3 _ _ h k _ rfl

/-- Window 9's array: columns 36 to 38 of `W1`. -/
theorem V_v4_apply (h : Fin 19) (k : Fin 3) :
    (V m c main_v4 : S19x3.Idx → EReal) (ix2 h k) = (memData m c).W1 (ix2 h ⟨36 + k.val, by have := k.isLt; omega⟩) := by
  have e : (V m c main_v4 : S19x3.Idx → EReal)
      = extractStridedSlice S19x3 ![0, 36] (m ((c : Thread nD τ).loc main_arg3)) slices_S19x39_S19x3_0_36 := by
    dsimp only [Gen.V, Gen.hostOps0]; after_results
  rw [e]
  exact slice2_axis1_apply 36 _ _ h k _ rfl

/-- Window 11's array: `b2` as a one-by-one array. -/
theorem V_v37_apply :
    (V m c main_v37 : S1x1.Idx → EReal) (ix2 0 0) = (memData m c).b2 (ix1 0) := by
  -- the array is `b2` recast from [1] to [1, 1]
  have e : (V m c main_v37 : S1x1.Idx → EReal)
      = shapeCast S1x1 (m ((c : Thread nD τ).loc main_arg6)) shapeCasts_S1_S1x1 := by
    dsimp only [Gen.V, Gen.hostOps0]; after_results <;> rfl
  rw [e]
  exact shapeCast_a_1a_apply _ _ 0 0

end Cert.KernelIdeal.Hand

end
-- ==== Proof.KerValue.lean ====
/-
  The kernel program's result array: after the run, output window 12's array is the specification's array in the
  kernel's grouping, and the arguments are as launched.

  The grid has sixty points. Point `t` stages rows `1000 t … 1000 t + 999` of the voxel descriptors, the offsets, the
  voxel coordinates and the batch-id column, and the whole of the eight small arrays (the centroid coordinates, the
  centroid term, the centroid batch-id row, the three column blocks of `W1`, `W2`, `b2`); it writes back rows
  `1000 t … 1000 t + 999` of the output, all 96 columns. Entry `(p, q)` of what it writes is the kernel-form entry of
  row `p` of the voxel blocks and row `q` of the centroid blocks, which is entry `(1000 t + p, q)` of the
  specification's array; the sixty row blocks cover the array (row `r` is in block `r / 1000`).
-/
import proofs.«143889_j7473243095301_1_alg».proof.Proof.Gen.KernelIdeal.Value
import proofs.«143889_j7473243095301_1_alg».proof.Proof.KerData
import proofs.«143889_j7473243095301_1_alg».proof.Proof.KerCell
import proofs.«143889_j7473243095301_1_alg».proof.Proof.KerHost

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx

section Blocks

variable (m : (ℓ : Loc nD τ sig) → Buf (Elt Ideal) ℓ) (c : Dev nD)

/-- The grid has sixty points. -/
theorem t_lt (t : Fin cfg0.N) : t.val < 60 := lt_of_lt_of_eq t.isLt N_0

/-- The printed index maps over the sixty grid points: the four voxel windows and the output window are at row block
    `t`, column block 0; the eight small windows are at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0) :=
  (by decide +kernel : ∀ t : Fin grid0.N, _)

/-- The row of the whole arrays that row `p` of point `t`'s blocks is. -/
abbrev row (t : Fin cfg0.N) (p : Fin 1000) : Fin 60000 := ⟨1000 * t.val + p.val, by have := t_lt t; omega⟩

/-! ## The input blocks at a point, each at its literal type -/

abbrev vdBlk (t : Fin cfg0.N) : Vec Ideal S1000x16 .f32 := iblk m c 0 t
abbrev offBlk (t : Fin cfg0.N) : Vec Ideal S1000x3 .f32 := iblk m c 1 t
abbrev coBlk (t : Fin cfg0.N) : Vec Ideal S1000x3 .i32 := iblk m c 2 t
abbrev bidBlk (t : Fin cfg0.N) : Vec Ideal S1000x1 .i32 := iblk m c 3 t
abbrev ccBlk (t : Fin cfg0.N) : Vec Ideal S96x3 .f32 := iblk m c 4 t
abbrev tcBlk (t : Fin cfg0.N) : Vec Ideal S96x19 .f32 := iblk m c 5 t
abbrev bpBlk (t : Fin cfg0.N) : Vec Ideal S1x96 .i32 := iblk m c 6 t
abbrev woffBlk (t : Fin cfg0.N) : Vec Ideal S19x3 .f32 := iblk m c 7 t
abbrev wdescBlk (t : Fin cfg0.N) : Vec Ideal S19x16 .f32 := iblk m c 8 t
abbrev wdistBlk (t : Fin cfg0.N) : Vec Ideal S19x3 .f32 := iblk m c 9 t
abbrev w2Blk (t : Fin cfg0.N) : Vec Ideal S1x19 .f32 := iblk m c 10 t
abbrev b2Blk (t : Fin cfg0.N) : Vec Ideal S1x1 .f32 := iblk m c 11 t

/-! ## Each block read where the output's rectangle says

A block's coordinate on an axis is its block index times the block's extent plus the coordinate inside the block. The
voxel blocks are rows `1000 t … 1000 t + 999` of their arrays; the small blocks are their whole arrays. -/

/-- Row `p` of the descriptor block is row `1000 t + p` of the voxel descriptors. -/
theorem vd_blk (t : Fin cfg0.N) (p : Fin 1000) (k : Fin 16) :
    vdBlk m c t (ix2 p k) = (memData m c).vd (ix2 (row t p) k) := by
  obtain ⟨⟨e0, e1⟩, -⟩ := idx_facts t
  show V m c main_arg0 (((cfg0.win 0).blk t).view.emb (ix2 p k)) = m ((c : Thread nD τ).loc main_arg0) _
  rw [V_main_arg0]
  refine congrArg _ ?_
  funext a; apply Fin.ext
  match a with
  | ⟨0, _⟩ => show win0_0.index t (0 : Fin 2) * 1000 + 1 * p.val = 1000 * t.val + p.val; omega
  | ⟨1, _⟩ => show win0_0.index t (1 : Fin 2) * 16 + 1 * k.val = k.val; omega

/-- Row `p` of the offset block is row `1000 t + p` of the offsets. -/
theorem off_blk (t : Fin cfg0.N) (p : Fin 1000) (k : Fin 3) :
    offBlk m c t (ix2 p k) = (memData m c).off (ix2 (row t p) k) := by
  obtain ⟨-, ⟨e0, e1⟩, -⟩ := idx_facts t
  show V m c main_arg2 (((cfg0.win 1).blk t).view.emb (ix2 p k)) = m ((c : Thread nD τ).loc main_arg2) _
  rw [V_main_arg2]
  refine congrArg _ ?_
  funext a; apply Fin.ext
  match a with
  | ⟨0, _⟩ => show win0_1.index t (0 : Fin 2) * 1000 + 1 * p.val = 1000 * t.val + p.val; omega
  | ⟨1, _⟩ => show win0_1.index t (1 : Fin 2) * 3 + 1 * k.val = k.val; omega

/-- Row `p` of the coordinate block is row `1000 t + p` of the voxel coordinates. -/
theorem co_blk (t : Fin cfg0.N) (p : Fin 1000) (k : Fin 3) :
    coBlk m c t (ix2 p k) = (memData m c).coords (ix2 (row t p) k) := by
  obtain ⟨-, -, ⟨e0, e1⟩, -⟩ := idx_facts t
  show V m c main_arg7 (((cfg0.win 2).blk t).view.emb (ix2 p k)) = m ((c : Thread nD τ).loc main_arg7) _
  rw [V_main_arg7]
  refine congrArg _ ?_
  funext a; apply Fin.ext
  match a with
  | ⟨0, _⟩ => show win0_2.index t (0 : Fin 2) * 1000 + 1 * p.val = 1000 * t.val + p.val; omega
  | ⟨1, _⟩ => show win0_2.index t (1 : Fin 2) * 3 + 1 * k.val = k.val; omega

/-- Entry `p` of the batch-id column block is the batch id of voxel `1000 t + p`. -/
theorem bid_blk (t : Fin cfg0.N) (p : Fin 1000) :
    bidBlk m c t (ix2 p 0) = (memData m c).bid (ix1 (row t p)) := by
  obtain ⟨-, -, -, ⟨e0, e1⟩, -⟩ := idx_facts t
  refine Eq.trans ?_ (V_v35_apply m c (row t p))
  show V m c main_v35 (((cfg0.win 3).blk t).view.emb (ix2 p 0)) = V m c main_v35 (ix2 (row t p) 0)
  refine congrArg _ ?_
  funext a; apply Fin.ext
  match a with
  | ⟨0, _⟩ => show win0_3.index t (0 : Fin 2) * 1000 + 1 * p.val = 1000 * t.val + p.val; omega
  | ⟨1, _⟩ => show win0_3.index t (1 : Fin 2) * 1 + 1 * 0 = 0; omega

/-- The centroid-coordinate block is the whole table. -/
theorem cc_blk (t : Fin cfg0.N) (q : Fin 96) (k : Fin 3) :
    ccBlk m c t (ix2 q k) = (memData m c).cc (ix2 q k) := by
  obtain ⟨-, -, -, -, ⟨e0, e1⟩, -⟩ := idx_facts t
  refine Eq.trans ?_ (congrFun (V_v19_eq m c) (ix2 q k))
  show V m c main_v19 (((cfg0.win 4).blk t).view.emb (ix2 q k)) = V m c main_v19 (ix2 q k)
  refine congrArg _ ?_
  funext a; apply Fin.ext
  match a with
  | ⟨0, _⟩ => show win0_4.index t (0 : Fin 2) * 96 + 1 * q.val = q.val; omega
  | ⟨1, _⟩ => show win0_4.index t (1 : Fin 2) * 3 + 1 * k.val = k.val; omega

/-- The centroid-term block is the whole table. -/
theorem tc_blk (t : Fin cfg0.N) (q : Fin 96) (h : Fin 19) :
    tcBlk m c t (ix2 q h) = Affinity.tcK (memData m c) q h := by
  obtain ⟨-, -, -, -, -, ⟨e0, e1⟩, -⟩ := idx_facts t
  refine Eq.trans ?_ (V_v34_apply m c q h)
  show V m c main_v34 (((cfg0.win 5).blk t).view.emb (ix2 q h)) = V m c main_v34 (ix2 q h)
  refine congrArg _ ?_
  funext a; apply Fin.ext
  match a with
  | ⟨0, _⟩ => show win0_5.index t (0 : Fin 2) * 96 + 1 * q.val = q.val; omega
  | ⟨1, _⟩ => show win0_5.index t (1 : Fin 2) * 19 + 1 * h.val = h.val; omega

/-- The centroid batch-id row block is the whole row. -/
theorem bp_blk (t : Fin cfg0.N) (q : Fin 96) :
    bpBlk m c t (ix2 0 q) = (memData m c).bp (ix1 q) := by
  obtain ⟨-, -, -, -, -, -, ⟨e0, e1⟩, -⟩ := idx_facts t
  refine Eq.trans ?_ (V_v36_apply m c q)
  show V m c main_v36 (((cfg0.win 6).blk t).view.emb (ix2 0 q)) = V m c main_v36 (ix2 0 q)
  refine congrArg _ ?_
  funext a; apply Fin.ext
  match a with
  | ⟨0, _⟩ => show win0_6.index t (0 : Fin 2) * 1 + 1 * 0 = 0; omega
  | ⟨1, _⟩ => show win0_6.index t (1 : Fin 2) * 96 + 1 * q.val = q.val; omega

/-- The offset-weight block is columns 0 to 2 of `W1`. -/
theorem woff_blk (t : Fin cfg0.N) (h : Fin 19) (k : Fin 3) :
    woffBlk m c t (ix2 h k) = (memData m c).W1 (ix2 h ⟨k.val, by have := k.isLt; omega⟩) := by
  obtain ⟨-, -, -, -, -, -, -, ⟨e0, e1⟩, -⟩ := idx_facts t
  refine Eq.trans ?_ (V_v0_apply m c h k)
  show V m c main_v0 (((cfg0.win 7).blk t).view.emb (ix2 h k)) = V m c main_v0 (ix2 h k)
  refine congrArg _ ?_
  funext a; apply Fin.ext
  match a with
  | ⟨0, _⟩ => show win0_7.index t (0 : Fin 2) * 19 + 1 * h.val = h.val; omega
  | ⟨1, _⟩ => show win0_7.index t (1 : Fin 2) * 3 + 1 * k.val = k.val; omega

/-- The descriptor-weight block is columns 3 to 18 of `W1`. -/
theorem wdesc_blk (t : Fin cfg0.N) (h : Fin 19) (k : Fin 16) :
    wdescBlk m c t (ix2 h k) = (memData m c).W1 (ix2 h ⟨3 + k.val, by have := k.isLt; omega⟩) := by
  obtain ⟨-, -, -, -, -, -, -, -, ⟨e0, e1⟩, -⟩ := idx_facts t
  refine Eq.trans ?_ (V_v1_apply m c h k)
  show V m c main_v1 (((cfg0.win 8).blk t).view.emb (ix2 h k)) = V m c main_v1 (ix2 h k)
  refine congrArg _ ?_
  funext a; apply Fin.ext
  match a with
  | ⟨0, _⟩ => show win0_8.index t (0 : Fin 2) * 19 + 1 * h.val = h.val; omega
  | ⟨1, _⟩ => show win0_8.index t (1 : Fin 2) * 16 + 1 * k.val = k.val; omega

/-- The displacement-weight block is columns 36 to 38 of `W1`. -/
theorem wdist_blk (t : Fin cfg0.N) (h : Fin 19) (k : Fin 3) :
    wdistBlk m c t (ix2 h k) = (memData m c).W1 (ix2 h ⟨36 + k.val, by have := k.isLt; omega⟩) := by
  obtain ⟨-, -, -, -, -, -, -, -, -, ⟨e0, e1⟩, -⟩ := idx_facts t
  refine Eq.trans ?_ (V_v4_apply m c h k)
  show V m c main_v4 (((cfg0.win 9).blk t).view.emb (ix2 h k)) = V m c main_v4 (ix2 h k)
  refine congrArg _ ?_
  funext a; apply Fin.ext
  match a with
  | ⟨0, _⟩ => show win0_9.index t (0 : Fin 2) * 19 + 1 * h.val = h.val; omega
  | ⟨1, _⟩ => show win0_9.index t (1 : Fin 2) * 3 + 1 * k.val = k.val; omega

/-- The `W2` block is the whole row. -/
theorem w2_blk (t : Fin cfg0.N) (h : Fin 19) :
    w2Blk m c t (ix2 0 h) = (memData m c).W2 (ix2 0 h) := by
  obtain ⟨-, -, -, -, -, -, -, -, -, -, ⟨e0, e1⟩, -⟩ := idx_facts t
  show V m c main_arg5 (((cfg0.win 10).blk t).view.emb (ix2 0 h)) = m ((c : Thread nD τ).loc main_arg5) _
  rw [V_main_arg5]
  refine congrArg _ ?_
  funext a; apply Fin.ext
  match a with
  | ⟨0, _⟩ => show win0_10.index t (0 : Fin 2) * 1 + 1 * 0 = 0; omega
  | ⟨1, _⟩ => show win0_10.index t (1 : Fin 2) * 19 + 1 * h.val = h.val; omega

/-- The `b2` block is its one entry. -/
theorem b2_blk (t : Fin cfg0.N) :
    b2Blk m c t (ix2 0 0) = (memData m c).b2 (ix1 0) := by
  obtain ⟨-, -, -, -, -, -, -, -, -, -, -, ⟨e0, e1⟩, -⟩ := idx_facts t
  refine Eq.trans ?_ (V_v37_apply m c)
  show V m c main_v37 (((cfg0.win 11).blk t).view.emb (ix2 0 0)) = V m c main_v37 (ix2 0 0)
  refine congrArg _ ?_
  funext a; apply Fin.ext
  match a with
  | ⟨0, _⟩ => show win0_11.index t (0 : Fin 2) * 1 + 1 * 0 = 0; omega
  | ⟨1, _⟩ => show win0_11.index t (1 : Fin 2) * 1 + 1 * 0 = 0; omega

/-! ## What a point writes back -/

/-- The kernel-form entry depends on its twelve arguments only through their values. -/
theorem cellK_congr {o o' : Fin 3 → EReal} {v v' : Fin 16 → EReal} {co co' : Fin 3 → BitVec 32} {cc cc' : Fin 3 → EReal}
    {tc tc' : Fin 19 → EReal} {A A' : Fin 19 → Fin 3 → EReal} {B B' : Fin 19 → Fin 16 → EReal} {C C' : Fin 19 → Fin 3 → EReal}
    {w w' : Fin 19 → EReal} {b b' : EReal} {bn bn' bm bm' : BitVec 32}
    (h1 : ∀ k, o k = o' k) (h2 : ∀ k, v k = v' k) (h3 : ∀ k, co k = co' k) (h4 : ∀ k, cc k = cc' k) (h5 : ∀ h, tc h = tc' h)
    (h6 : ∀ h k, A h k = A' h k) (h7 : ∀ h k, B h k = B' h k) (h8 : ∀ h k, C h k = C' h k) (h9 : ∀ h, w h = w' h)
    (h10 : b = b') (h11 : bn = bn') (h12 : bm = bm') :
    Affinity.cellK o v co cc tc A B C w b bn bm = Affinity.cellK o' v' co' cc' tc' A' B' C' w' b' bn' bm' := by
  obtain rfl : o = o' := funext h1
  obtain rfl : v = v' := funext h2
  obtain rfl : co = co' := funext h3
  obtain rfl : cc = cc' := funext h4
  obtain rfl : tc = tc' := funext h5
  obtain rfl : A = A' := funext fun h => funext (h6 h)
  obtain rfl : B = B' := funext fun h => funext (h7 h)
  obtain rfl : C = C' := funext fun h => funext (h8 h)
  obtain rfl : w = w' := funext h9
  subst h10 h11 h12
  rfl

/-- Entry `(p, q)` of the block the body leaves at point `t` is entry `(1000 t + p, q)` of the specification's array. -/
theorem cell_eq (t : Fin cfg0.N) (p : Fin 1000) (q : Fin 96) :
    out0_12 (F := Ideal) (vdBlk m c t) (offBlk m c t) (coBlk m c t) (bidBlk m c t) (ccBlk m c t) (tcBlk m c t) (bpBlk m c t)
        (woffBlk m c t) (wdescBlk m c t) (wdistBlk m c t) (w2Blk m c t) (b2Blk m c t) (ix2 p q)
      = Affinity.outK (memData m c) (ix2 (row t p) q) := by
  refine (out0_12_apply (vdBlk m c t) (offBlk m c t) (coBlk m c t) (bidBlk m c t) (ccBlk m c t) (tcBlk m c t) (bpBlk m c t)
    (woffBlk m c t) (wdescBlk m c t) (wdistBlk m c t) (w2Blk m c t) (b2Blk m c t) p q).trans ?_
  unfold Affinity.outK
  exact cellK_congr (fun k => off_blk m c t p k) (fun k => vd_blk m c t p k) (fun k => co_blk m c t p k)
    (fun k => cc_blk m c t q k) (fun h => tc_blk m c t q h) (fun h k => woff_blk m c t h k) (fun h k => wdesc_blk m c t h k)
    (fun h k => wdist_blk m c t h k) (fun h => w2_blk m c t h) (b2_blk m c t) (bid_blk m c t p) (bp_blk m c t q)

/-- WHAT POINT `t` WRITES BACK is block `t` of the specification's array. -/
theorem flushed_eq (t : Fin cfg0.N) :
    (dats m 0 c).flushed 12 t = ((cfg0.win 12).blk t).view.read (Elt Ideal) (Affinity.outK (memData m c)) := by
  rw [Value.flushed12]
  obtain ⟨-, -, -, -, -, -, -, -, -, -, -, -, ⟨e0, e1⟩⟩ := idx_facts t
  funext j
  have hj0 : (j 0).val < 1000 := (j 0).isLt
  have hj1 : (j 1).val < 96 := (j 1).isLt
  have hx : (cfg0.win 12).xinj (grid0.coords t) j = (ix2 (⟨(j 0).val, hj0⟩ : Fin 1000) (⟨(j 1).val, hj1⟩ : Fin 96) : S1000x96.Idx) := by
    funext a
    match a with
    | ⟨0, _⟩ => rfl
    | ⟨1, _⟩ => rfl
  have hemb : ((cfg0.win 12).blk t).view.emb j = (ix2 (row t ⟨(j 0).val, hj0⟩) (⟨(j 1).val, hj1⟩ : Fin 96) : S60000x96.Idx) := by
    funext a; apply Fin.ext
    match a with
    | ⟨0, _⟩ => show win0_12.index t (0 : Fin 2) * 1000 + 1 * (j 0).val = 1000 * t.val + (j 0).val; omega
    | ⟨1, _⟩ => show win0_12.index t (1 : Fin 2) * 96 + 1 * (j 1).val = (j 1).val; omega
  show out0_12 (F := Ideal) (vdBlk m c t) (offBlk m c t) (coBlk m c t) (bidBlk m c t) (ccBlk m c t) (tcBlk m c t) (bpBlk m c t)
        (woffBlk m c t) (wdescBlk m c t) (wdistBlk m c t) (w2Blk m c t) (b2Blk m c t) ((cfg0.win 12).xinj (grid0.coords t) j)
      = Affinity.outK (memData m c) (((cfg0.win 12).blk t).view.emb j)
  rw [hx, hemb]
  exact cell_eq m c t ⟨(j 0).val, hj0⟩ ⟨(j 1).val, hj1⟩

/-! ## The blocks cover the array -/

/-- An index of the array is in point `t`'s block iff each coordinate is in the block's range on its axis. -/
theorem mem_blk (t : Fin cfg0.N) (i : S60000x96.Idx) :
    i ∈ ((cfg0.win 12).blk t).view.set ↔ ∀ a : Fin 2, win0_12.index t a * S1000x96.size a ≤ (i a).val ∧ (i a).val < win0_12.index t a * S1000x96.size a + S1000x96.size a := by
  show i ∈ ((View.whole main_v38).slice (win0_12.rect t)).set ↔ _
  rw [View.set_slice_whole, Rect.mem_set_unit]
  exact Iff.rfl

/-- Row `r` is in the block of point `r / 1000`, whatever the column. -/
theorem cover (i : S60000x96.Idx) :
    ∃ t : Fin cfg0.N, (cfg0.win 12).flush t = true ∧ i ∈ ((cfg0.win 12).blk t).view.set := by
  have hi0 : (i 0).val < 60000 := (i 0).isLt
  have hi1 : (i 1).val < 96 := (i 1).isLt
  have ht : (i 0).val / 1000 < cfg0.N := lt_of_lt_of_eq (by omega) N_0.symm
  obtain ⟨-, -, -, -, -, -, -, -, -, -, -, -, ⟨e0, e1⟩⟩ := idx_facts ⟨(i 0).val / 1000, ht⟩
  refine ⟨⟨(i 0).val / 1000, ht⟩, flush0_12 _, ?_⟩
  rw [mem_blk]
  intro a
  match a with
  | ⟨0, _⟩ =>
    show win0_12.index ⟨(i 0).val / 1000, ht⟩ (0 : Fin 2) * 1000 ≤ (i 0).val ∧ (i 0).val < win0_12.index ⟨(i 0).val / 1000, ht⟩ (0 : Fin 2) * 1000 + 1000
    rw [e0]
    show (i 0).val / 1000 * 1000 ≤ (i 0).val ∧ (i 0).val < (i 0).val / 1000 * 1000 + 1000
    omega
  | ⟨1, _⟩ =>
    show win0_12.index ⟨(i 0).val / 1000, ht⟩ (1 : Fin 2) * 96 ≤ (i 1).val ∧ (i 1).val < win0_12.index ⟨(i 0).val / 1000, ht⟩ (1 : Fin 2) * 96 + 96
    rw [e1]
    omega

end Blocks

/-- The output array after the last grid point is the specification's array. -/
theorem final (m : (ℓ : Loc nD τ sig) → Buf (Elt Ideal) ℓ) (c : Dev nD) :
    (dats m 0 c).arrAt 12 cfg0.N = Affinity.outK (memData m c) :=
  (dats m 0 c).arrAt_eq_of_cover 12 (Affinity.outK (memData m c)) (fun t _ => flushed_eq m c t) cover

/-- The kernel program's run with its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v38) = Affinity.outK (memData m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (run_blocks m ρ)

end Cert.KernelIdeal.Hand

end
-- ==== Proof.RefTerm.lean ====
/-
  The reference program as ONE pure function of its ten arguments, stage by stage in the program's own order:
  the peak-index normalisation and the three gathers at the peaks; the two concatenated feature tables; the
  displacement tensor; the three products with the column blocks of `W1`; their sum with the bias; relu; the
  product with `W2` and the bias `b2`; the clip; `nan_to_num`; the batch mask. Each definition is the composition
  of the operations that compute that value in the program, nothing simplified.
-/
import proofs.«143889_j7473243095301_1_alg».proof.Proof.Gen.ReferenceIdeal
import proofs.«143889_j7473243095301_1_alg».proof.Proof.Spec

noncomputable section

namespace Cert.ReferenceIdeal.Term

open Cert.ReferenceIdeal Idealize.ShloMosaic
open Cert.ReferenceIdeal.Facts₀

variable {F : FTy → Type} [FloatOps F]

/-- jnp's index normalisation (a negative index counts from the end), then the index column. -/
def pidx (a9 : IVec S96 32) : IVec S96x1 32 :=
  broadcastInDim S96x1 ![0] bcast_S96_S96x1_0
    (select (cmpi .slt a9 (broadcastInDim S96 ![] bcast_S_S96 (constantI S_ 32 0#32)))
      (addi a9 (broadcastInDim S96 ![] bcast_S_S96 (constantI S_ 32 60000#32))) a9)

/-- `voxel_desc[peak_indices]`. -/
def cvd (a0 : FVec F S60000x16 .f32) (a9 : IVec S96 32) : FVec F S96x16 .f32 :=
  Host.gather gather_S60000x16_S96x1_S96x16_1_0_n_n_0_1_116 a0 (pidx a9)

/-- `coords[peak_indices]`, still integers. -/
def ccI (a7 : IVec S60000x3 32) (a9 : IVec S96 32) : IVec S96x3 32 :=
  Host.gather gather_S60000x3_S96x1_S96x3_1_0_n_n_0_1_13 a7 (pidx a9)

/-- `batch_ids[peak_indices]`. -/
def bp (a8 : IVec S60000 32) (a9 : IVec S96 32) : IVec S96 32 :=
  Host.gather gather_S60000_S96x1_S96_n_0_n_n_0_1_1 a8 (pidx a9)

/-- `[voxel_desc at the peaks | centroid_conf]`. -/
def v7 (a0 : FVec F S60000x16 .f32) (a1 : FVec F S96x1 .f32) (a9 : IVec S96 32) : FVec F S96x17 .f32 :=
  concatenate S96x17 1 [⟨S96x16, cvd a0 a9⟩, ⟨S96x1, a1⟩] concatenates_S96x16_S96x1_S96x17_d1

/-- `[offsets | voxel_desc]`. -/
def v8 (a0 : FVec F S60000x16 .f32) (a2 : FVec F S60000x3 .f32) : FVec F S60000x19 .f32 :=
  concatenate S60000x19 1 [⟨S60000x3, a2⟩, ⟨S60000x16, a0⟩] concatenates_S60000x3_S60000x16_S60000x19_d1

/-- The moved voxel coordinates. -/
def v10 (a2 : FVec F S60000x3 .f32) (a7 : IVec S60000x3 32) : FVec F S60000x3 .f32 := addf (sitofp .f32 a7) a2

/-- The centroid coordinates as floats. -/
def v18 (a7 : IVec S60000x3 32) (a9 : IVec S96 32) : FVec F S96x3 .f32 := sitofp .f32 (ccI a7 a9)

/-- The displacement of every voxel from every centroid. -/
def v23 (a2 : FVec F S60000x3 .f32) (a7 : IVec S60000x3 32) (a9 : IVec S96 32) : FVec F S60000x96x3 .f32 :=
  subf
    (broadcastInDim S60000x96x3 ![0, 1, 2] bcast_S60000x1x3_S60000x96x3_0_1_2
      (broadcastInDim S60000x1x3 ![0, 2] bcast_S60000x3_S60000x1x3_0_2 (v10 a2 a7)))
    (broadcastInDim S60000x96x3 ![0, 1, 2] bcast_S1x96x3_S60000x96x3_0_1_2
      (broadcastInDim S1x96x3 ![1, 2] bcast_S96x3_S1x96x3_1_2 (v18 a7 a9)))

/-- The voxel product with the first nineteen columns of `W1`. -/
def v28 (a0 : FVec F S60000x16 .f32) (a2 : FVec F S60000x3 .f32) (a3 : FVec F S19x39 .f32) : FVec F S60000x19 .f32 :=
  Host.dotGeneral dot_S60000x19_S19x19_S60000x19_1_0_0_1_n_n none (v8 a0 a2)
    (transpose S19x19 [1, 0] (extractStridedSlice S19x19 ![0, 0] a3 slices_S19x39_S19x19_0_0) transposes_S19x19_S19x19_1_0)

/-- The centroid product with columns 19 to 35 of `W1`. -/
def v31 (a0 : FVec F S60000x16 .f32) (a1 : FVec F S96x1 .f32) (a3 : FVec F S19x39 .f32) (a9 : IVec S96 32) : FVec F S96x19 .f32 :=
  Host.dotGeneral dot_S96x17_S17x19_S96x19_1_0_0_1_n_n none (v7 a0 a1 a9)
    (transpose S17x19 [1, 0] (extractStridedSlice S19x17 ![0, 19] a3 slices_S19x39_S19x17_0_19) transposes_S19x17_S17x19_1_0)

/-- The displacement product with the last three columns of `W1`. -/
def v36 (a2 : FVec F S60000x3 .f32) (a3 : FVec F S19x39 .f32) (a7 : IVec S60000x3 32) (a9 : IVec S96 32) : FVec F S60000x96x19 .f32 :=
  Host.dotGeneral dot_S60000x96x3_S19x3_S60000x96x19_2_1_01_0_n_n none (v23 a2 a7 a9)
    (extractStridedSlice S19x3 ![0, 36] a3 slices_S19x39_S19x3_0_36)

/-- The hidden pre-activation. -/
def v40 (a0 : FVec F S60000x16 .f32) (a1 : FVec F S96x1 .f32) (a2 : FVec F S60000x3 .f32) (a3 : FVec F S19x39 .f32)
    (a4 : FVec F S19 .f32) (a7 : IVec S60000x3 32) (a9 : IVec S96 32) : FVec F S60000x96x19 .f32 :=
  addf
    (addf
      (addf
        (broadcastInDim S60000x96x19 ![0, 1, 2] bcast_S60000x1x19_S60000x96x19_0_1_2
          (broadcastInDim S60000x1x19 ![0, 2] bcast_S60000x19_S60000x1x19_0_2 (v28 a0 a2 a3)))
        (broadcastInDim S60000x96x19 ![0, 1, 2] bcast_S1x96x19_S60000x96x19_0_1_2
          (broadcastInDim S1x96x19 ![1, 2] bcast_S96x19_S1x96x19_1_2 (v31 a0 a1 a3 a9))))
      (v36 a2 a3 a7 a9))
    (broadcastInDim S60000x96x19 ![0, 1, 2] bcast_S1x1x19_S60000x96x19_0_1_2
      (broadcastInDim S1x1x19 ![2] bcast_S19_S1x1x19_2 a4))

/-- relu. -/
def v41 (a0 : FVec F S60000x16 .f32) (a1 : FVec F S96x1 .f32) (a2 : FVec F S60000x3 .f32) (a3 : FVec F S19x39 .f32)
    (a4 : FVec F S19 .f32) (a7 : IVec S60000x3 32) (a9 : IVec S96 32) : FVec F S60000x96x19 .f32 :=
  maximumf (v40 a0 a1 a2 a3 a4 a7 a9)
    (broadcastInDim S60000x96x19 ![] bcast_S_S60000x96x19 (constant S_ .f32 0x00000000#32))

/-- The logit before the clip. -/
def v46 (a0 : FVec F S60000x16 .f32) (a1 : FVec F S96x1 .f32) (a2 : FVec F S60000x3 .f32) (a3 : FVec F S19x39 .f32)
    (a4 : FVec F S19 .f32) (a5 : FVec F S1x19 .f32) (a6 : FVec F S1 .f32) (a7 : IVec S60000x3 32) (a9 : IVec S96 32) :
    FVec F S60000x96 .f32 :=
  addf
    (shapeCast S60000x96
      (Host.dotGeneral dot_S60000x96x19_S1x19_S60000x96x1_2_1_01_0_n_n none (v41 a0 a1 a2 a3 a4 a7 a9) a5)
      shapeCasts_S60000x96x1_S60000x96)
    (broadcastInDim S60000x96 ![] bcast_S_S60000x96 (shapeCast S_ a6 shapeCasts_S1_S_))

/-- `jnp.clip`: the maximum with the lower bound, then the minimum with the upper. -/
def clipV (x : FVec F S60000x96 .f32) : FVec F S60000x96 .f32 :=
  minimumf (broadcastInDim S60000x96 ![] bcast_S_S60000x96 (id (constant S_ .f32 0x41200000#32)))
    (maximumf (broadcastInDim S60000x96 ![] bcast_S_S60000x96 (id (constant S_ .f32 0xC1200000#32))) x)

/-- `nan_to_num`, first select: a NaN becomes zero. -/
def nn2 (x : FVec F S60000x96 .f32) : FVec F S60000x96 .f32 :=
  select (cmpf .une x x) (broadcastInDim S60000x96 ![] bcast_S_S60000x96 (id (constant S_ .f32 0x00000000#32))) x

/-- `nan_to_num`, second select: `+∞` becomes the largest finite float. -/
def nn5 (x : FVec F S60000x96 .f32) : FVec F S60000x96 .f32 :=
  select (cmpf .oeq (nn2 x) (broadcastInDim S60000x96 ![] bcast_S_S60000x96 (constant S_ .f32 0x7F800000#32)))
    (broadcastInDim S60000x96 ![] bcast_S_S60000x96 (constant S_ .f32 0x7F7FFFFF#32)) (nn2 x)

/-- `nan_to_num`, third select: `-∞` becomes the smallest finite float. -/
def nn8 (x : FVec F S60000x96 .f32) : FVec F S60000x96 .f32 :=
  select (cmpf .oeq (nn5 x) (broadcastInDim S60000x96 ![] bcast_S_S60000x96 (constant S_ .f32 0xFF800000#32)))
    (broadcastInDim S60000x96 ![] bcast_S_S60000x96 (constant S_ .f32 0xFF7FFFFF#32)) (nn5 x)

/-- The batch mask: voxel `n`'s batch id against centroid `m`'s. -/
def v60 (a8 : IVec S60000 32) (a9 : IVec S96 32) : IVec S60000x96 1 :=
  cmpi .eq
    (broadcastInDim S60000x96 ![0, 1] bcast_S60000x1_S60000x96_0_1 (broadcastInDim S60000x1 ![0] bcast_S60000_S60000x1_0 a8))
    (broadcastInDim S60000x96 ![0, 1] bcast_S1x96_S60000x96_0_1 (broadcastInDim S1x96 ![1] bcast_S96_S1x96_1 (bp a8 a9)))

/-- The reference's result. -/
def result (a0 : FVec F S60000x16 .f32) (a1 : FVec F S96x1 .f32) (a2 : FVec F S60000x3 .f32) (a3 : FVec F S19x39 .f32)
    (a4 : FVec F S19 .f32) (a5 : FVec F S1x19 .f32) (a6 : FVec F S1 .f32) (a7 : IVec S60000x3 32) (a8 : IVec S60000 32)
    (a9 : IVec S96 32) : FVec F S60000x96 .f32 :=
  select (v60 a8 a9) (nn8 (clipV (v46 a0 a1 a2 a3 a4 a5 a6 a7 a9)))
    (broadcastInDim S60000x96 ![] bcast_S_S60000x96 (id (constant S_ .f32 0xFF800000#32)))

/-- The arrays of the specification, from the reference's arguments. -/
def rdata (a0 : FVec Ideal S60000x16 .f32) (a1 : FVec Ideal S96x1 .f32) (a2 : FVec Ideal S60000x3 .f32) (a3 : FVec Ideal S19x39 .f32)
    (a4 : FVec Ideal S19 .f32) (a5 : FVec Ideal S1x19 .f32) (a6 : FVec Ideal S1 .f32) (a7 : IVec S60000x3 32) (a8 : IVec S60000 32)
    (a9 : IVec S96 32) : Affinity.Data where
  vd := a0
  conf := a1
  off := a2
  W1 := a3
  b1 := a4
  W2 := a5
  b2 := a6
  coords := a7
  bid := a8
  cvd := cvd a0 a9
  cc := v18 a7 a9
  bp := bp a8 a9

end Cert.ReferenceIdeal.Term

end
-- ==== Proof.RefRun.lean ====
/-
  The reference program's run: @main as the list of its host operations (the private functions unfolded at their
  calls), and every weakly fair execution ending with the result buffer at the composed function of the arguments.
-/
import proofs.«143889_j7473243095301_1_alg».proof.Proof.Gen.ReferenceIdeal
import proofs.«143889_j7473243095301_1_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The centroids' feature table: the sixteen gathered descriptor columns, then the confidence column. -/
def cat17 (a : FVec F S96x16 .f32) (b : FVec F S96x1 .f32) : FVec F S96x17 .f32 :=
  concatenate S96x17 1 [⟨S96x16, a⟩, ⟨S96x1, b⟩] concatenates_S96x16_S96x1_S96x17_d1

/-- The voxels' feature table: the three offset columns, then the sixteen descriptor columns. -/
def cat19 (a : FVec F S60000x3 .f32) (b : FVec F S60000x16 .f32) : FVec F S60000x19 .f32 :=
  concatenate S60000x19 1 [⟨S60000x3, a⟩, ⟨S60000x16, b⟩] concatenates_S60000x3_S60000x16_S60000x19_d1

/-- @main's operations in order, the five private functions unfolded at their calls: forty-five of @main's own up to
    the hidden pre-activation (the index normalisation and the gather three times over, the two concatenated tables,
    the displacement, the three products with the column blocks of the first weight, their sum with the bias); relu's
    three into `main_call0`'s buffers (the zero, its broadcast, the maximum); the product with the second weight, the
    two reshapes, the bias; clip's six into `main_call1`'s (each bound converted to its own type and broadcast, the
    maximum with the lower, the minimum with the upper); nan_to_num's sixteen into `main_call2`'s (the self-comparison
    that finds a NaN, the zero converted, and three times `_where`'s two — the scalar's broadcast and the select —
    into `main_call2.call0`, `.call1`, `.call2`, between them the two infinities, their broadcasts and comparisons
    and the two extreme finite floats); the batch mask (the third normalisation and gather, the two broadcasts, the
    integer comparison); `_where_0`'s three into `main_call3`'s (the `-∞` converted and broadcast, the select). -/
abbrev ops : List (HloOp τ sig (Elt F)) :=
  [ nullary main_c (constantI S_ 32 0#32),
    unary main_c main_v0 (broadcastInDim S96 ![] bcast_S_S96),
    binary main_arg9 main_v0 main_v1 (cmpi .slt),
    nullary main_c_0 (constantI S_ 32 60000#32),
    unary main_c_0 main_v2 (broadcastInDim S96 ![] bcast_S_S96),
    binary main_arg9 main_v2 main_v3 addi,
    ternary main_v1 main_v3 main_arg9 main_v4 select,
    unary main_v4 main_v5 (broadcastInDim S96x1 ![0] bcast_S96_S96x1_0),
    binary main_arg0 main_v5 main_v6 (fun x i => Host.gather gather_S60000x16_S96x1_S96x16_1_0_n_n_0_1_116 x i),
    binary main_v6 main_arg1 main_v7 cat17,
    binary main_arg2 main_arg0 main_v8 cat19,
    unary main_arg7 main_v9 (sitofp .f32),
    binary main_v9 main_arg2 main_v10 addf,
    nullary main_c_1 (constantI S_ 32 0#32),
    unary main_c_1 main_v11 (broadcastInDim S96 ![] bcast_S_S96),
    binary main_arg9 main_v11 main_v12 (cmpi .slt),
    nullary main_c_2 (constantI S_ 32 60000#32),
    unary main_c_2 main_v13 (broadcastInDim S96 ![] bcast_S_S96),
    binary main_arg9 main_v13 main_v14 addi,
    ternary main_v12 main_v14 main_arg9 main_v15 select,
    unary main_v15 main_v16 (broadcastInDim S96x1 ![0] bcast_S96_S96x1_0),
    binary main_arg7 main_v16 main_v17 (fun x i => Host.gather gather_S60000x3_S96x1_S96x3_1_0_n_n_0_1_13 x i),
    unary main_v17 main_v18 (sitofp .f32),
    unary main_v10 main_v19 (broadcastInDim S60000x1x3 ![0, 2] bcast_S60000x3_S60000x1x3_0_2),
    unary main_v18 main_v20 (broadcastInDim S1x96x3 ![1, 2] bcast_S96x3_S1x96x3_1_2),
    unary main_v19 main_v21 (broadcastInDim S60000x96x3 ![0, 1, 2] bcast_S60000x1x3_S60000x96x3_0_1_2),
    unary main_v20 main_v22 (broadcastInDim S60000x96x3 ![0, 1, 2] bcast_S1x96x3_S60000x96x3_0_1_2),
    binary main_v21 main_v22 main_v23 subf,
    unary main_arg3 main_v24 (extractStridedSlice S19x19 ![0, 0] · slices_S19x39_S19x19_0_0),
    unary main_arg3 main_v25 (extractStridedSlice S19x17 ![0, 19] · slices_S19x39_S19x17_0_19),
    unary main_arg3 main_v26 (extractStridedSlice S19x3 ![0, 36] · slices_S19x39_S19x3_0_36),
    unary main_v24 main_v27 (transpose S19x19 [1, 0] · transposes_S19x19_S19x19_1_0),
    binary main_v8 main_v27 main_v28 (fun l r => Host.dotGeneral dot_S60000x19_S19x19_S60000x19_1_0_0_1_n_n none l r),
    unary main_v28 main_v29 (broadcastInDim S60000x1x19 ![0, 2] bcast_S60000x19_S60000x1x19_0_2),
    unary main_v25 main_v30 (transpose S17x19 [1, 0] · transposes_S19x17_S17x19_1_0),
    binary main_v7 main_v30 main_v31 (fun l r => Host.dotGeneral dot_S96x17_S17x19_S96x19_1_0_0_1_n_n none l r),
    unary main_v31 main_v32 (broadcastInDim S1x96x19 ![1, 2] bcast_S96x19_S1x96x19_1_2),
    unary main_v29 main_v33 (broadcastInDim S60000x96x19 ![0, 1, 2] bcast_S60000x1x19_S60000x96x19_0_1_2),
    unary main_v32 main_v34 (broadcastInDim S60000x96x19 ![0, 1, 2] bcast_S1x96x19_S60000x96x19_0_1_2),
    binary main_v33 main_v34 main_v35 addf,
    binary main_v23 main_v26 main_v36 (fun l r => Host.dotGeneral dot_S60000x96x3_S19x3_S60000x96x19_2_1_01_0_n_n none l r),
    binary main_v35 main_v36 main_v37 addf,
    unary main_arg4 main_v38 (broadcastInDim S1x1x19 ![2] bcast_S19_S1x1x19_2),
    unary main_v38 main_v39 (broadcastInDim S60000x96x19 ![0, 1, 2] bcast_S1x1x19_S60000x96x19_0_1_2),
    binary main_v37 main_v39 main_v40 addf,
    TRef.nullary main_call0.cst (constant S_ .f32 0x00000000#32),
    TRef.unary main_call0.cst main_call0.v0 (broadcastInDim S60000x96x19 ![] bcast_S_S60000x96x19),
    TRef.binary (.of main_v40) main_call0.v0 main_call0.v1 maximumf,
    binary main_v41 main_arg5 main_v42 (fun l r => Host.dotGeneral dot_S60000x96x19_S1x19_S60000x96x1_2_1_01_0_n_n none l r),
    reshape main_v42 main_v43 rfl shapeCasts_S60000x96x1_S60000x96,
    reshape main_arg6 main_v44 rfl shapeCasts_S1_S_,
    unary main_v44 main_v45 (broadcastInDim S60000x96 ![] bcast_S_S60000x96),
    binary main_v43 main_v45 main_v46 addf,
    nullary main_cst (constant S_ .f32 0xC1200000#32),
    nullary main_cst_3 (constant S_ .f32 0x41200000#32),
    TRef.unary (.of main_cst) main_call1.v0 id,
    TRef.unary main_call1.v0 main_call1.v1 (broadcastInDim S60000x96 ![] bcast_S_S60000x96),
    TRef.binary main_call1.v1 (.of main_v46) main_call1.v2 maximumf,
    TRef.unary (.of main_cst_3) main_call1.v3 id,
    TRef.unary main_call1.v3 main_call1.v4 (broadcastInDim S60000x96 ![] bcast_S_S60000x96),
    TRef.binary main_call1.v4 main_call1.v2 main_call1.v5 minimumf,
    nullary main_cst_4 (constant S_ .f32 0x00000000#32),
    TRef.binary (.of main_v47) (.of main_v47) main_call2.v0 (cmpf .une),
    TRef.unary (.of main_cst_4) main_call2.v1 id,
    TRef.unary main_call2.v1 main_call2.call0.v0 (broadcastInDim S60000x96 ![] bcast_S_S60000x96),
    TRef.ternary main_call2.v0 main_call2.call0.v0 (.of main_v47) main_call2.call0.v1 select,
    TRef.nullary main_call2.cst (constant S_ .f32 0x7F800000#32),
    TRef.unary main_call2.cst main_call2.v3 (broadcastInDim S60000x96 ![] bcast_S_S60000x96),
    TRef.binary main_call2.call0.v1 main_call2.v3 main_call2.v4 (cmpf .oeq),
    TRef.nullary main_call2.cst_0 (constant S_ .f32 0x7F7FFFFF#32),
    TRef.unary main_call2.cst_0 main_call2.call1.v0 (broadcastInDim S60000x96 ![] bcast_S_S60000x96),
    TRef.ternary main_call2.v4 main_call2.call1.v0 main_call2.call0.v1 main_call2.call1.v1 select,
    TRef.nullary main_call2.cst_1 (constant S_ .f32 0xFF800000#32),
    TRef.unary main_call2.cst_1 main_call2.v6 (broadcastInDim S60000x96 ![] bcast_S_S60000x96),
    TRef.binary main_call2.call1.v1 main_call2.v6 main_call2.v7 (cmpf .oeq),
    TRef.nullary main_call2.cst_2 (constant S_ .f32 0xFF7FFFFF#32),
    TRef.unary main_call2.cst_2 main_call2.call2.v0 (broadcastInDim S60000x96 ![] bcast_S_S60000x96),
    TRef.ternary main_call2.v7 main_call2.call2.v0 main_call2.call1.v1 main_call2.call2.v1 select,
    unary main_arg8 main_v49 (broadcastInDim S60000x1 ![0] bcast_S60000_S60000x1_0),
    nullary main_c_5 (constantI S_ 32 0#32),
    unary main_c_5 main_v50 (broadcastInDim S96 ![] bcast_S_S96),
    binary main_arg9 main_v50 main_v51 (cmpi .slt),
    nullary main_c_6 (constantI S_ 32 60000#32),
    unary main_c_6 main_v52 (broadcastInDim S96 ![] bcast_S_S96),
    binary main_arg9 main_v52 main_v53 addi,
    ternary main_v51 main_v53 main_arg9 main_v54 select,
    unary main_v54 main_v55 (broadcastInDim S96x1 ![0] bcast_S96_S96x1_0),
    binary main_arg8 main_v55 main_v56 (fun x i => Host.gather gather_S60000_S96x1_S96_n_0_n_n_0_1_1 x i),
    unary main_v56 main_v57 (broadcastInDim S1x96 ![1] bcast_S96_S1x96_1),
    unary main_v49 main_v58 (broadcastInDim S60000x96 ![0, 1] bcast_S60000x1_S60000x96_0_1),
    unary main_v57 main_v59 (broadcastInDim S60000x96 ![0, 1] bcast_S1x96_S60000x96_0_1),
    binary main_v58 main_v59 main_v60 (cmpi .eq),
    nullary main_cst_7 (constant S_ .f32 0xFF800000#32),
    TRef.unary (.of main_cst_7) main_call3.v0 id,
    TRef.unary main_call3.v0 main_call3.v1 (broadcastInDim S60000x96 ![] bcast_S_S60000x96),
    TRef.ternary (.of main_v60) (.of main_v48) main_call3.v1 main_call3.v2 select ]

-- ninety-six sequenced steps to reassociate: the depth needed grows with the number of statements
set_option maxRecDepth 4096 in
set_option maxHeartbeats 4000000 in
/-- @main is that straight line: its two windows in order, the functions' definitions unfolded at their calls and the
    records at their fields; both sides are one chain of host steps once sequencing is reassociated. -/
theorem main_eq (c : Dev nD) : main (F := F) c = seq ops := by
  simp only [main, main_part0, main_part1, fn_relu.body, fn_clip.body, fn_where.body, fn_nan_to_num.body, fn_where_0.body,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: one fact per operation, in the list's order. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    unary_bufs_sub .., unary_bufs_sub .., unary_bufs_sub .., binary_bufs_sub .., unary_bufs_sub .., unary_bufs_sub ..,
    unary_bufs_sub .., unary_bufs_sub .., binary_bufs_sub .., unary_bufs_sub .., unary_bufs_sub .., binary_bufs_sub ..,
    unary_bufs_sub .., unary_bufs_sub .., unary_bufs_sub .., binary_bufs_sub .., binary_bufs_sub .., binary_bufs_sub ..,
    unary_bufs_sub .., unary_bufs_sub .., binary_bufs_sub ..,
    nullary_bufs_sub .., unary_bufs_sub .., binary_bufs_sub ..,
    binary_bufs_sub .., reshape_bufs_sub .., reshape_bufs_sub .., unary_bufs_sub .., binary_bufs_sub .., nullary_bufs_sub ..,
    nullary_bufs_sub ..,
    unary_bufs_sub .., unary_bufs_sub .., binary_bufs_sub .., unary_bufs_sub .., unary_bufs_sub .., binary_bufs_sub ..,
    nullary_bufs_sub ..,
    binary_bufs_sub .., unary_bufs_sub .., unary_bufs_sub .., ternary_bufs_sub .., nullary_bufs_sub .., unary_bufs_sub ..,
    binary_bufs_sub .., nullary_bufs_sub .., unary_bufs_sub .., ternary_bufs_sub .., nullary_bufs_sub .., unary_bufs_sub ..,
    binary_bufs_sub .., nullary_bufs_sub .., unary_bufs_sub .., ternary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    unary_bufs_sub .., binary_bufs_sub .., nullary_bufs_sub ..,
    unary_bufs_sub .., unary_bufs_sub .., ternary_bufs_sub ..⟩

attribute [local irreducible] Host.gather concatenate transpose extractStridedSlice broadcastInDim shapeCast in
set_option maxRecDepth 16384 in
set_option maxHeartbeats 4000000 in
/-- The fold at the result buffer is the composed function of the arguments: each operation's result at its own
    buffer is its function of its operands' contents, at any other buffer what was there, and the typed references'
    transports are the identity at these literal references; what is left is the stages' definitions unfolded. The
    gathers and the layout operations stay folded meanwhile (the contractions belong to the float family and are
    opaque as they stand): the equation never looks inside them. -/
theorem out_eq (V : Valuation τ sig (Elt F)) :
    after ops V (main_v61 : DevRef τ sig)
      = Term.result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  simp only [TRef.ofBuf, TRef.toBuf, cast_eq]
  unfold Term.result Term.v60 Term.bp Term.nn8 Term.nn5 Term.nn2 Term.clipV Term.v46 Term.v41 Term.v40 Term.v36 Term.v31 Term.v28
    Term.v23 Term.v18 Term.v10 Term.v8 Term.v7 Term.ccI Term.cvd Term.pidx cat17 cat19
  rfl

/-! No operation writes an argument buffer: the fold leaves each at its launch contents. -/

set_option maxHeartbeats 1000000 in
theorem arg0_eq (V : Valuation τ sig (Elt F)) :
    after ops V (main_arg0 : DevRef τ sig) = V (main_arg0 : DevRef τ sig) := by
  after_results_simp

set_option maxHeartbeats 1000000 in
theorem arg1_eq (V : Valuation τ sig (Elt F)) :
    after ops V (main_arg1 : DevRef τ sig) = V (main_arg1 : DevRef τ sig) := by
  after_results_simp

set_option maxHeartbeats 1000000 in
theorem arg2_eq (V : Valuation τ sig (Elt F)) :
    after ops V (main_arg2 : DevRef τ sig) = V (main_arg2 : DevRef τ sig) := by
  after_results_simp

set_option maxHeartbeats 1000000 in
theorem arg3_eq (V : Valuation τ sig (Elt F)) :
    after ops V (main_arg3 : DevRef τ sig) = V (main_arg3 : DevRef τ sig) := by
  after_results_simp

set_option maxHeartbeats 1000000 in
theorem arg4_eq (V : Valuation τ sig (Elt F)) :
    after ops V (main_arg4 : DevRef τ sig) = V (main_arg4 : DevRef τ sig) := by
  after_results_simp

set_option maxHeartbeats 1000000 in
theorem arg5_eq (V : Valuation τ sig (Elt F)) :
    after ops V (main_arg5 : DevRef τ sig) = V (main_arg5 : DevRef τ sig) := by
  after_results_simp

set_option maxHeartbeats 1000000 in
theorem arg6_eq (V : Valuation τ sig (Elt F)) :
    after ops V (main_arg6 : DevRef τ sig) = V (main_arg6 : DevRef τ sig) := by
  after_results_simp

set_option maxHeartbeats 1000000 in
theorem arg7_eq (V : Valuation τ sig (Elt F)) :
    after ops V (main_arg7 : DevRef τ sig) = V (main_arg7 : DevRef τ sig) := by
  after_results_simp

set_option maxHeartbeats 1000000 in
theorem arg8_eq (V : Valuation τ sig (Elt F)) :
    after ops V (main_arg8 : DevRef τ sig) = V (main_arg8 : DevRef τ sig) := by
  after_results_simp

set_option maxHeartbeats 1000000 in
theorem arg9_eq (V : Valuation τ sig (Elt F)) :
    after ops V (main_arg9 : DevRef τ sig) = V (main_arg9 : DevRef τ sig) := by
  after_results_simp

/-- On every device, from any memory with zero counters: every weakly fair execution of @main terminates with the
    result at `Term.result` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v61)
        = Term.result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
            (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c main_v61).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _), (h c main_arg8).trans (arg8_eq _),
      (h c main_arg9).trans (arg9_eq _)⟩)
    (run_seq scopedRefs_eq scopedSems_eq defs main (fun _ => ops) main_eq (fun _ => ops_sub) m ρ)

end Cert.ReferenceIdeal.HandRun

end
-- ==== Proof.RefValue.lean ====
/-
  The reference's composed function, read index by index at the ideal values, is the specification's array in the
  reference's grouping.
-/
import proofs.«143889_j7473243095301_1_alg».proof.Proof.RefTerm
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefValue

open Cert.ReferenceIdeal Idealize.ShloMosaic Idealize.ShloMosaic.ValueIdx

/-! ## The stages that act entry by entry -/

/-- The displacement tensor at (n, m, k): the moved voxel coordinate less the centroid's. -/
theorem v23_apply (a2 : FVec Ideal S60000x3 .f32) (a7 : IVec S60000x3 32) (a9 : IVec S96 32)
    (n : Fin 60000) (m : Fin 96) (k : Fin 3) :
    Term.v23 (F := Ideal) a2 a7 a9 (ix3 n m k)
      = Affinity.dist (a7 (ix2 n k)) (a2 (ix2 n k)) (Term.v18 (F := Ideal) a7 a9 (ix2 m k)) := by
  unfold Term.v23
  rw [subf_apply]
  rw [broadcastInDim_apply _ _ _ (ix3 n m k) (ix3 n (0 : Fin 1) k)
        (fun a => match a with | ⟨0, _⟩ => rfl | ⟨1, _⟩ => rfl | ⟨2, _⟩ => rfl),
      broadcastInDim_apply _ _ _ (ix3 n (0 : Fin 1) k) (ix2 n k)
        (fun a => match a with | ⟨0, _⟩ => rfl | ⟨1, _⟩ => rfl)]
  rw [broadcastInDim_apply _ _ _ (ix3 n m k) (ix3 (0 : Fin 1) m k)
        (fun a => match a with | ⟨0, _⟩ => rfl | ⟨1, _⟩ => rfl | ⟨2, _⟩ => rfl),
      broadcastInDim_apply _ _ _ (ix3 (0 : Fin 1) m k) (ix2 m k)
        (fun a => match a with | ⟨0, _⟩ => rfl | ⟨1, _⟩ => rfl)]
  rfl

/-- The hidden pre-activation at (n, m, h): voxel part, centroid part, displacement part, bias. -/
theorem v40_apply (a0 : FVec Ideal S60000x16 .f32) (a1 : FVec Ideal S96x1 .f32) (a2 : FVec Ideal S60000x3 .f32)
    (a3 : FVec Ideal S19x39 .f32) (a4 : FVec Ideal S19 .f32) (a7 : IVec S60000x3 32) (a9 : IVec S96 32)
    (n : Fin 60000) (m : Fin 96) (h : Fin 19) :
    Term.v40 (F := Ideal) a0 a1 a2 a3 a4 a7 a9 (ix3 n m h)
      = ((Term.v28 (F := Ideal) a0 a2 a3 (ix2 n h) + Term.v31 (F := Ideal) a0 a1 a3 a9 (ix2 m h))
          + Term.v36 (F := Ideal) a2 a3 a7 a9 (ix3 n m h)) + a4 (ix1 h) := by
  unfold Term.v40
  rw [addf_apply, addf_apply, addf_apply]
  rw [broadcastInDim_apply _ _ _ (ix3 n m h) (ix3 n (0 : Fin 1) h)
        (fun a => match a with | ⟨0, _⟩ => rfl | ⟨1, _⟩ => rfl | ⟨2, _⟩ => rfl),
      broadcastInDim_apply _ _ _ (ix3 n (0 : Fin 1) h) (ix2 n h)
        (fun a => match a with | ⟨0, _⟩ => rfl | ⟨1, _⟩ => rfl)]
  rw [broadcastInDim_apply _ _ _ (ix3 n m h) (ix3 (0 : Fin 1) m h)
        (fun a => match a with | ⟨0, _⟩ => rfl | ⟨1, _⟩ => rfl | ⟨2, _⟩ => rfl),
      broadcastInDim_apply _ _ _ (ix3 (0 : Fin 1) m h) (ix2 m h)
        (fun a => match a with | ⟨0, _⟩ => rfl | ⟨1, _⟩ => rfl)]
  rw [broadcastInDim_apply _ _ _ (ix3 n m h) (ix3 (0 : Fin 1) (0 : Fin 1) h)
        (fun a => match a with | ⟨0, _⟩ => rfl | ⟨1, _⟩ => rfl | ⟨2, _⟩ => rfl),
      broadcastInDim_apply _ _ _ (ix3 (0 : Fin 1) (0 : Fin 1) h) (ix1 h)
        (fun a => match a with | ⟨0, _⟩ => rfl)]

/-- relu at an index: the maximum with zero. -/
theorem v41_apply (a0 : FVec Ideal S60000x16 .f32) (a1 : FVec Ideal S96x1 .f32) (a2 : FVec Ideal S60000x3 .f32)
    (a3 : FVec Ideal S19x39 .f32) (a4 : FVec Ideal S19 .f32) (a7 : IVec S60000x3 32) (a9 : IVec S96 32)
    (j : S60000x96x19.Idx) :
    Term.v41 (F := Ideal) a0 a1 a2 a3 a4 a7 a9 j = max (Term.v40 (F := Ideal) a0 a1 a2 a3 a4 a7 a9 j) 0 := by
  unfold Term.v41
  rw [maximumf_apply, broadcastInDim_scalar_apply, constant_apply, Ideal.ofBits_zero_f32]

/-- The upper clip bound's word denotes the real ten. -/
theorem hi_eq : Affinity.hi = ((10 : ℝ) : EReal) := by
  simp [Affinity.hi, Ideal.ofBits, Ideal.ieee, -EReal.coe_mul]; norm_num

/-- The lower clip bound's word denotes the real minus ten. -/
theorem lo_eq : Affinity.lo = ((-10 : ℝ) : EReal) := by
  simp [Affinity.lo, Ideal.ofBits, Ideal.ieee, -EReal.coe_mul, -EReal.coe_neg]; norm_num

/-- The word of plus infinity. -/
theorem ofBits_pinf : Ideal.ofBits .f32 0x7F800000#32 = (⊤ : EReal) := by
  simp [Ideal.ofBits, Ideal.ieee]

/-- The word of minus infinity. -/
theorem ofBits_ninf : Ideal.ofBits .f32 0xFF800000#32 = (⊥ : EReal) := by
  simp [Ideal.ofBits, Ideal.ieee]

/-- The clip at an index. -/
theorem clipV_apply (x : FVec Ideal S60000x96 .f32) (i : S60000x96.Idx) :
    Term.clipV (F := Ideal) x i = Affinity.clip (x i) := by
  unfold Term.clipV
  rw [minimumf_apply, maximumf_apply, broadcastInDim_scalar_apply, broadcastInDim_scalar_apply]
  rfl

/-- The batch mask at (n, m): the voxel's batch id against the centroid's. -/
theorem v60_apply (a8 : IVec S60000 32) (a9 : IVec S96 32) (n : Fin 60000) (m : Fin 96) :
    Term.v60 a8 a9 (ix2 n m) = IntOp.cmpi .eq (a8 (ix1 n)) (Term.bp a8 a9 (ix1 m)) := by
  unfold Term.v60
  show IntOp.cmpi .eq _ _ = _
  rw [broadcastInDim_apply _ _ _ (ix2 n m) (ix2 n (0 : Fin 1))
        (fun a => match a with | ⟨0, _⟩ => rfl | ⟨1, _⟩ => rfl),
      broadcastInDim_apply _ _ _ (ix2 n (0 : Fin 1)) (ix1 n)
        (fun a => match a with | ⟨0, _⟩ => rfl)]
  rw [broadcastInDim_apply _ _ _ (ix2 n m) (ix2 (0 : Fin 1) m)
        (fun a => match a with | ⟨0, _⟩ => rfl | ⟨1, _⟩ => rfl),
      broadcastInDim_apply _ _ _ (ix2 (0 : Fin 1) m) (ix1 m)
        (fun a => match a with | ⟨0, _⟩ => rfl)]

/-! ## The four contractions

Each product contracts one axis. At output index `j` and contraction position `k` the left operand is read at the
index that keeps `j`'s coordinates on its free axes and carries `k` on the contracted one, and the right operand
likewise; re-indexing the contraction by its one coordinate turns each product into a sum over `Fin` of that axis's
extent. -/

/-! ### The voxel product: operand indices of its contraction -/

theorem lhs28_0 (j : S60000x19.Idx) (k : dot_S60000x19_S19x19_S60000x19_1_0_0_1_n_n.contr.Idx) :
    (dot_S60000x19_S19x19_S60000x19_1_0_0_1_n_n.lhsIdx j k 0).val = (j 0).val := by
  simp [DotDims.lhsIdx, dot_S60000x19_S19x19_S60000x19_1_0_0_1_n_n]; rfl

theorem lhs28_1 (j : S60000x19.Idx) (k : dot_S60000x19_S19x19_S60000x19_1_0_0_1_n_n.contr.Idx) :
    (dot_S60000x19_S19x19_S60000x19_1_0_0_1_n_n.lhsIdx j k 1).val = (k ⟨0, by decide⟩).val :=
  DotDims.lhsIdx_val_of_single _ rfl j k

theorem rhs28_0 (j : S60000x19.Idx) (k : dot_S60000x19_S19x19_S60000x19_1_0_0_1_n_n.contr.Idx) :
    (dot_S60000x19_S19x19_S60000x19_1_0_0_1_n_n.rhsIdx j k 0).val = (k ⟨0, by decide⟩).val :=
  DotDims.rhsIdx_val_of_single _ rfl j k

theorem rhs28_1 (j : S60000x19.Idx) (k : dot_S60000x19_S19x19_S60000x19_1_0_0_1_n_n.contr.Idx) :
    (dot_S60000x19_S19x19_S60000x19_1_0_0_1_n_n.rhsIdx j k 1).val = (j 1).val := by
  simp [DotDims.rhsIdx, dot_S60000x19_S19x19_S60000x19_1_0_0_1_n_n]; rfl

/-- The voxel product at (n, h): row n of the concatenated features against row h of the first nineteen columns
    of the weight matrix. -/
theorem v28_apply (a0 : FVec Ideal S60000x16 .f32) (a2 : FVec Ideal S60000x3 .f32) (a3 : FVec Ideal S19x39 .f32)
    (n : Fin 60000) (h : Fin 19) :
    Term.v28 (F := Ideal) a0 a2 a3 (ix2 n h)
      = ∑ k : Fin 19, Term.v8 (F := Ideal) a0 a2 (ix2 n k) * a3 (ix2 h ⟨k.val, by have := k.isLt; omega⟩) := by
  unfold Term.v28
  simp only [Host.dotGeneral]
  rw [Ideal.dotGeneral_apply,
    ← Equiv.sum_comp (contrEquiv1 dot_S60000x19_S19x19_S60000x19_1_0_0_1_n_n 19 rfl rfl).symm]
  refine Finset.sum_congr rfl fun k _ => ?_
  have ck := contrEquiv1_symm_val dot_S60000x19_S19x19_S60000x19_1_0_0_1_n_n 19 rfl rfl k
  have hl : dot_S60000x19_S19x19_S60000x19_1_0_0_1_n_n.lhsIdx (ix2 n h)
      ((contrEquiv1 dot_S60000x19_S19x19_S60000x19_1_0_0_1_n_n 19 rfl rfl).symm k) = ix2 n k := by
    funext ax; apply Fin.ext
    match ax with
    | ⟨0, _⟩ => exact lhs28_0 _ _
    | ⟨1, _⟩ => exact (lhs28_1 _ _).trans ck
  have hr : dot_S60000x19_S19x19_S60000x19_1_0_0_1_n_n.rhsIdx (ix2 n h)
      ((contrEquiv1 dot_S60000x19_S19x19_S60000x19_1_0_0_1_n_n 19 rfl rfl).symm k) = ix2 k h := by
    funext ax; apply Fin.ext
    match ax with
    | ⟨0, _⟩ => exact (rhs28_0 _ _).trans ck
    | ⟨1, _⟩ => exact rhs28_1 _ _
  rw [hl, hr]
  congr 1
  refine (transpose_ix2_apply _ _ k h).trans ?_
  exact slice2_axis1_apply 0 a3 _ h k ⟨k.val, by have := k.isLt; omega⟩ (Nat.zero_add _).symm

/-! ### The centroid product: operand indices of its contraction -/

theorem lhs31_0 (j : S96x19.Idx) (k : dot_S96x17_S17x19_S96x19_1_0_0_1_n_n.contr.Idx) :
    (dot_S96x17_S17x19_S96x19_1_0_0_1_n_n.lhsIdx j k 0).val = (j 0).val := by
  simp [DotDims.lhsIdx, dot_S96x17_S17x19_S96x19_1_0_0_1_n_n]; rfl

theorem lhs31_1 (j : S96x19.Idx) (k : dot_S96x17_S17x19_S96x19_1_0_0_1_n_n.contr.Idx) :
    (dot_S96x17_S17x19_S96x19_1_0_0_1_n_n.lhsIdx j k 1).val = (k ⟨0, by decide⟩).val :=
  DotDims.lhsIdx_val_of_single _ rfl j k

theorem rhs31_1 (j : S96x19.Idx) (k : dot_S96x17_S17x19_S96x19_1_0_0_1_n_n.contr.Idx) :
    (dot_S96x17_S17x19_S96x19_1_0_0_1_n_n.rhsIdx j k 1).val = (j 1).val := by
  simp [DotDims.rhsIdx, dot_S96x17_S17x19_S96x19_1_0_0_1_n_n]; rfl

theorem rhs31_0 (j : S96x19.Idx) (k : dot_S96x17_S17x19_S96x19_1_0_0_1_n_n.contr.Idx) :
    (dot_S96x17_S17x19_S96x19_1_0_0_1_n_n.rhsIdx j k 0).val = (k ⟨0, by decide⟩).val :=
  DotDims.rhsIdx_val_of_single _ rfl j k

/-- The centroid product at (m, h): row m of the centroid features against columns 19 to 35 of row h of the weight
    matrix. -/
theorem v31_apply (a0 : FVec Ideal S60000x16 .f32) (a1 : FVec Ideal S96x1 .f32) (a3 : FVec Ideal S19x39 .f32)
    (a9 : IVec S96 32) (m : Fin 96) (h : Fin 19) :
    Term.v31 (F := Ideal) a0 a1 a3 a9 (ix2 m h)
      = ∑ k : Fin 17, Term.v7 (F := Ideal) a0 a1 a9 (ix2 m k) * a3 (ix2 h ⟨19 + k.val, by have := k.isLt; omega⟩) := by
  unfold Term.v31
  simp only [Host.dotGeneral]
  rw [Ideal.dotGeneral_apply, ← Equiv.sum_comp (contrEquiv1 dot_S96x17_S17x19_S96x19_1_0_0_1_n_n 17 rfl rfl).symm]
  refine Finset.sum_congr rfl fun k _ => ?_
  have ck := contrEquiv1_symm_val dot_S96x17_S17x19_S96x19_1_0_0_1_n_n 17 rfl rfl k
  have hl : dot_S96x17_S17x19_S96x19_1_0_0_1_n_n.lhsIdx (ix2 m h) ((contrEquiv1 dot_S96x17_S17x19_S96x19_1_0_0_1_n_n 17 rfl rfl).symm k) = ix2 m k := by
    funext ax; apply Fin.ext
    match ax with
    | ⟨0, _⟩ => exact lhs31_0 _ _
    | ⟨1, _⟩ => exact (lhs31_1 _ _).trans ck
  have hr : dot_S96x17_S17x19_S96x19_1_0_0_1_n_n.rhsIdx (ix2 m h) ((contrEquiv1 dot_S96x17_S17x19_S96x19_1_0_0_1_n_n 17 rfl rfl).symm k) = ix2 k h := by
    funext ax; apply Fin.ext
    match ax with
    | ⟨0, _⟩ => exact (rhs31_0 _ _).trans ck
    | ⟨1, _⟩ => exact rhs31_1 _ _
  rw [hl, hr]
  congr 1
  refine (transpose_ix2_apply _ _ k h).trans ?_
  exact slice2_axis1_apply 19 a3 _ h k ⟨19 + k.val, by have := k.isLt; omega⟩ rfl

/-! ### The displacement product: operand indices of its contraction -/

theorem lhs36_0 (j : S60000x96x19.Idx) (k : dot_S60000x96x3_S19x3_S60000x96x19_2_1_01_0_n_n.contr.Idx) :
    (dot_S60000x96x3_S19x3_S60000x96x19_2_1_01_0_n_n.lhsIdx j k 0).val = (j 0).val := by
  simp [DotDims.lhsIdx, dot_S60000x96x3_S19x3_S60000x96x19_2_1_01_0_n_n]; rfl

theorem lhs36_1 (j : S60000x96x19.Idx) (k : dot_S60000x96x3_S19x3_S60000x96x19_2_1_01_0_n_n.contr.Idx) :
    (dot_S60000x96x3_S19x3_S60000x96x19_2_1_01_0_n_n.lhsIdx j k 1).val = (j 1).val := by
  simp [DotDims.lhsIdx, dot_S60000x96x3_S19x3_S60000x96x19_2_1_01_0_n_n]; rfl

theorem lhs36_2 (j : S60000x96x19.Idx) (k : dot_S60000x96x3_S19x3_S60000x96x19_2_1_01_0_n_n.contr.Idx) :
    (dot_S60000x96x3_S19x3_S60000x96x19_2_1_01_0_n_n.lhsIdx j k 2).val = (k ⟨0, by decide⟩).val :=
  DotDims.lhsIdx_val_of_single _ rfl j k

theorem rhs36_0 (j : S60000x96x19.Idx) (k : dot_S60000x96x3_S19x3_S60000x96x19_2_1_01_0_n_n.contr.Idx) :
    (dot_S60000x96x3_S19x3_S60000x96x19_2_1_01_0_n_n.rhsIdx j k 0).val = (j 2).val := by
  simp [DotDims.rhsIdx, dot_S60000x96x3_S19x3_S60000x96x19_2_1_01_0_n_n]; rfl

theorem rhs36_1 (j : S60000x96x19.Idx) (k : dot_S60000x96x3_S19x3_S60000x96x19_2_1_01_0_n_n.contr.Idx) :
    (dot_S60000x96x3_S19x3_S60000x96x19_2_1_01_0_n_n.rhsIdx j k 1).val = (k ⟨0, by decide⟩).val :=
  DotDims.rhsIdx_val_of_single _ rfl j k

/-- The displacement product at (n, m, h): the displacement of voxel n from centroid m against the last three
    columns of row h of the weight matrix. -/
theorem v36_apply (a2 : FVec Ideal S60000x3 .f32) (a3 : FVec Ideal S19x39 .f32) (a7 : IVec S60000x3 32)
    (a9 : IVec S96 32) (n : Fin 60000) (m : Fin 96) (h : Fin 19) :
    Term.v36 (F := Ideal) a2 a3 a7 a9 (ix3 n m h)
      = ∑ k : Fin 3, Term.v23 (F := Ideal) a2 a7 a9 (ix3 n m k) * a3 (ix2 h ⟨36 + k.val, by have := k.isLt; omega⟩) := by
  unfold Term.v36
  simp only [Host.dotGeneral]
  rw [Ideal.dotGeneral_apply, ← Equiv.sum_comp (contrEquiv1 dot_S60000x96x3_S19x3_S60000x96x19_2_1_01_0_n_n 3 rfl rfl).symm]
  refine Finset.sum_congr rfl fun k _ => ?_
  have ck := contrEquiv1_symm_val dot_S60000x96x3_S19x3_S60000x96x19_2_1_01_0_n_n 3 rfl rfl k
  have hl : dot_S60000x96x3_S19x3_S60000x96x19_2_1_01_0_n_n.lhsIdx (ix3 n m h) ((contrEquiv1 dot_S60000x96x3_S19x3_S60000x96x19_2_1_01_0_n_n 3 rfl rfl).symm k) = ix3 n m k := by
    funext ax; apply Fin.ext
    match ax with
    | ⟨0, _⟩ => exact lhs36_0 _ _
    | ⟨1, _⟩ => exact lhs36_1 _ _
    | ⟨2, _⟩ => exact (lhs36_2 _ _).trans ck
  have hr : dot_S60000x96x3_S19x3_S60000x96x19_2_1_01_0_n_n.rhsIdx (ix3 n m h) ((contrEquiv1 dot_S60000x96x3_S19x3_S60000x96x19_2_1_01_0_n_n 3 rfl rfl).symm k) = ix2 h k := by
    funext ax; apply Fin.ext
    match ax with
    | ⟨0, _⟩ => exact rhs36_0 _ _
    | ⟨1, _⟩ => exact (rhs36_1 _ _).trans ck
  rw [hl, hr]
  congr 1
  exact slice2_axis1_apply 36 a3 _ h k ⟨36 + k.val, by have := k.isLt; omega⟩ rfl

/-! ### The output product: operand indices of its contraction -/

theorem lhs46_0 (j : S60000x96x1.Idx) (k : dot_S60000x96x19_S1x19_S60000x96x1_2_1_01_0_n_n.contr.Idx) :
    (dot_S60000x96x19_S1x19_S60000x96x1_2_1_01_0_n_n.lhsIdx j k 0).val = (j 0).val := by
  simp [DotDims.lhsIdx, dot_S60000x96x19_S1x19_S60000x96x1_2_1_01_0_n_n]; rfl

theorem lhs46_1 (j : S60000x96x1.Idx) (k : dot_S60000x96x19_S1x19_S60000x96x1_2_1_01_0_n_n.contr.Idx) :
    (dot_S60000x96x19_S1x19_S60000x96x1_2_1_01_0_n_n.lhsIdx j k 1).val = (j 1).val := by
  simp [DotDims.lhsIdx, dot_S60000x96x19_S1x19_S60000x96x1_2_1_01_0_n_n]; rfl

theorem lhs46_2 (j : S60000x96x1.Idx) (k : dot_S60000x96x19_S1x19_S60000x96x1_2_1_01_0_n_n.contr.Idx) :
    (dot_S60000x96x19_S1x19_S60000x96x1_2_1_01_0_n_n.lhsIdx j k 2).val = (k ⟨0, by decide⟩).val :=
  DotDims.lhsIdx_val_of_single _ rfl j k

theorem rhs46_0 (j : S60000x96x1.Idx) (k : dot_S60000x96x19_S1x19_S60000x96x1_2_1_01_0_n_n.contr.Idx) :
    (dot_S60000x96x19_S1x19_S60000x96x1_2_1_01_0_n_n.rhsIdx j k 0).val = 0 :=
  Fin.val_eq_zero _

theorem rhs46_1 (j : S60000x96x1.Idx) (k : dot_S60000x96x19_S1x19_S60000x96x1_2_1_01_0_n_n.contr.Idx) :
    (dot_S60000x96x19_S1x19_S60000x96x1_2_1_01_0_n_n.rhsIdx j k 1).val = (k ⟨0, by decide⟩).val :=
  DotDims.rhsIdx_val_of_single _ rfl j k

/-- The output product at (n, m, 0): the activations of the pair (n, m) against the one row of the second weight
    matrix. -/
theorem dot46_apply (X : FVec Ideal S60000x96x19 .f32) (a5 : FVec Ideal S1x19 .f32) (n : Fin 60000) (m : Fin 96) :
    Host.dotGeneral dot_S60000x96x19_S1x19_S60000x96x1_2_1_01_0_n_n none X a5 (ix3 n m (0 : Fin 1))
      = ∑ h : Fin 19, X (ix3 n m h) * a5 (ix2 (0 : Fin 1) h) := by
  simp only [Host.dotGeneral]
  rw [Ideal.dotGeneral_apply, ← Equiv.sum_comp (contrEquiv1 dot_S60000x96x19_S1x19_S60000x96x1_2_1_01_0_n_n 19 rfl rfl).symm]
  refine Finset.sum_congr rfl fun k _ => ?_
  have ck := contrEquiv1_symm_val dot_S60000x96x19_S1x19_S60000x96x1_2_1_01_0_n_n 19 rfl rfl k
  have hl : dot_S60000x96x19_S1x19_S60000x96x1_2_1_01_0_n_n.lhsIdx (ix3 n m (0 : Fin 1)) ((contrEquiv1 dot_S60000x96x19_S1x19_S60000x96x1_2_1_01_0_n_n 19 rfl rfl).symm k) = ix3 n m k := by
    funext ax; apply Fin.ext
    match ax with
    | ⟨0, _⟩ => exact lhs46_0 _ _
    | ⟨1, _⟩ => exact lhs46_1 _ _
    | ⟨2, _⟩ => exact (lhs46_2 _ _).trans ck
  have hr : dot_S60000x96x19_S1x19_S60000x96x1_2_1_01_0_n_n.rhsIdx (ix3 n m (0 : Fin 1)) ((contrEquiv1 dot_S60000x96x19_S1x19_S60000x96x1_2_1_01_0_n_n 19 rfl rfl).symm k) = ix2 (0 : Fin 1) k := by
    funext ax; apply Fin.ext
    match ax with
    | ⟨0, _⟩ => exact rhs46_0 _ _
    | ⟨1, _⟩ => exact (rhs46_1 _ _).trans ck
  rw [hl, hr]

/-! ## The two concatenated feature tables -/

/-- Row n of the voxel features: the three offsets, then the sixteen descriptor entries. -/
theorem v8_apply (a0 : FVec Ideal S60000x16 .f32) (a2 : FVec Ideal S60000x3 .f32) (n : Fin 60000) (k : Fin 19) :
    Term.v8 (F := Ideal) a0 a2 (ix2 n k)
      = if h : k.val < 3 then a2 (ix2 n ⟨k.val, h⟩) else a0 (ix2 n ⟨k.val - 3, by have := k.isLt; omega⟩) := by
  unfold Term.v8
  split
  · next h =>
    exact concatenate_pair_apply_left 1 a2 a0 _ (ix2 n k) rfl (ix2 n ⟨k.val, h⟩)
      (fun b => match b with | ⟨0, _⟩ => rfl | ⟨1, _⟩ => rfl)
  · next h =>
    exact concatenate_pair_apply_right 1 a2 a0 _ (ix2 n k) rfl rfl (ix2 n ⟨k.val - 3, by have := k.isLt; omega⟩)
      (fun b hb => match b, hb with | ⟨0, _⟩, _ => rfl | ⟨1, _⟩, hb => (hb rfl).elim)
      (by show k.val - 3 + 3 = k.val; omega)

/-- Row m of the centroid features: the sixteen descriptor entries at the peak, then the confidence. -/
theorem v7_apply (a0 : FVec Ideal S60000x16 .f32) (a1 : FVec Ideal S96x1 .f32) (a9 : IVec S96 32) (m : Fin 96) (k : Fin 17) :
    Term.v7 (F := Ideal) a0 a1 a9 (ix2 m k)
      = if h : k.val < 16 then Term.cvd (F := Ideal) a0 a9 (ix2 m ⟨k.val, h⟩)
        else a1 (ix2 m ⟨k.val - 16, by have := k.isLt; omega⟩) := by
  unfold Term.v7
  split
  · next h =>
    exact concatenate_pair_apply_left 1 (Term.cvd (F := Ideal) a0 a9) a1 _ (ix2 m k) rfl (ix2 m ⟨k.val, h⟩)
      (fun b => match b with | ⟨0, _⟩ => rfl | ⟨1, _⟩ => rfl)
  · next h =>
    exact concatenate_pair_apply_right 1 (Term.cvd (F := Ideal) a0 a9) a1 _ (ix2 m k) rfl rfl
      (ix2 m ⟨k.val - 16, by have := k.isLt; omega⟩)
      (fun b hb => match b, hb with | ⟨0, _⟩, _ => rfl | ⟨1, _⟩, hb => (hb rfl).elim)
      (by show k.val - 16 + 16 = k.val; omega)

/-! ## The logit -/

/-- The logit at (n, m): the activations against the second weight row, plus the second bias. -/
theorem v46_apply (a0 : FVec Ideal S60000x16 .f32) (a1 : FVec Ideal S96x1 .f32) (a2 : FVec Ideal S60000x3 .f32)
    (a3 : FVec Ideal S19x39 .f32) (a4 : FVec Ideal S19 .f32) (a5 : FVec Ideal S1x19 .f32) (a6 : FVec Ideal S1 .f32)
    (a7 : IVec S60000x3 32) (a9 : IVec S96 32) (n : Fin 60000) (m : Fin 96) :
    Term.v46 (F := Ideal) a0 a1 a2 a3 a4 a5 a6 a7 a9 (ix2 n m)
      = (∑ h : Fin 19, Term.v41 (F := Ideal) a0 a1 a2 a3 a4 a7 a9 (ix3 n m h) * a5 (ix2 (0 : Fin 1) h))
          + a6 (ix1 (0 : Fin 1)) := by
  unfold Term.v46
  rw [addf_apply, broadcastInDim_scalar_apply]
  congr 1
  · refine (shapeCast_apply _ _ (ix2 n m) (ix3 n m (0 : Fin 1)) ?_).trans (dot46_apply _ a5 n m)
    rw [Shape.rowMajor_val_three, Shape.rowMajor_val_two]
    show (n.val * 96 + m.val) * 1 + 0 = n.val * 96 + m.val
    omega
  · refine (shapeCast_dropUnit_apply ![] a6 _ ix0).trans ?_
    exact congrArg a6 (funext fun a => match a with | ⟨0, _⟩ => rfl)

/-! ## nan_to_num on a value that is neither infinity -/

/-- The first select: on a linear order nothing differs from itself, so the value passes. -/
theorem nn2_apply (x : FVec Ideal S60000x96 .f32) (i : S60000x96.Idx) : Term.nn2 (F := Ideal) x i = x i := by
  unfold Term.nn2
  rw [select_apply, cmpf_apply, Ideal.cmpf_def]
  have e : Ideal.cmp .une (x i) (x i) = 0#1 := by simp [Ideal.cmp]
  rw [e, select_zero]

/-- The second select: a value that is not plus infinity passes. -/
theorem nn5_apply (x : FVec Ideal S60000x96 .f32) (i : S60000x96.Idx) (ht : x i ≠ ⊤) : Term.nn5 (F := Ideal) x i = x i := by
  unfold Term.nn5
  rw [select_apply, cmpf_apply, Ideal.cmpf_def, nn2_apply, broadcastInDim_scalar_apply, constant_apply, ofBits_pinf]
  have e : Ideal.cmp .oeq (x i) ⊤ = 0#1 := by simp [Ideal.cmp, ht]
  rw [e, select_zero]

/-- The third select: a value that is neither infinity passes. -/
theorem nn8_apply (x : FVec Ideal S60000x96 .f32) (i : S60000x96.Idx) (ht : x i ≠ ⊤) (hb : x i ≠ ⊥) :
    Term.nn8 (F := Ideal) x i = x i := by
  unfold Term.nn8
  rw [select_apply, cmpf_apply, Ideal.cmpf_def, nn5_apply x i ht, broadcastInDim_scalar_apply, constant_apply, ofBits_ninf]
  have e : Ideal.cmp .oeq (x i) ⊥ = 0#1 := by simp [Ideal.cmp, hb]
  rw [e, select_zero]

/-- A clipped value is at most ten, so it is not plus infinity. -/
theorem clip_ne_top (y : EReal) : Affinity.clip y ≠ ⊤ := by
  have h1 : Affinity.clip y ≤ Affinity.hi := min_le_left _ _
  rw [hi_eq] at h1
  exact (lt_of_le_of_lt h1 (EReal.coe_lt_top 10)).ne

/-- A clipped value is at least minus ten, so it is not minus infinity. -/
theorem clip_ne_bot (y : EReal) : Affinity.clip y ≠ ⊥ := by
  have hlh : Affinity.lo ≤ Affinity.hi := by
    rw [lo_eq, hi_eq]; exact EReal.coe_le_coe_iff.mpr (by norm_num)
  have h1 : Affinity.lo ≤ Affinity.clip y := le_min hlh (le_max_left _ _)
  rw [lo_eq] at h1
  exact (lt_of_lt_of_le (EReal.bot_lt_coe (-10)) h1).ne'

/-! ## The pre-activation is the specification's, and the result -/

/-- The hidden pre-activation at (n, m, h) is the specification's, in the reference's grouping. -/
theorem v40_eq_preR (a0 : FVec Ideal S60000x16 .f32) (a1 : FVec Ideal S96x1 .f32) (a2 : FVec Ideal S60000x3 .f32)
    (a3 : FVec Ideal S19x39 .f32) (a4 : FVec Ideal S19 .f32) (a5 : FVec Ideal S1x19 .f32) (a6 : FVec Ideal S1 .f32)
    (a7 : IVec S60000x3 32) (a8 : IVec S60000 32) (a9 : IVec S96 32) (n : Fin 60000) (m : Fin 96) (h : Fin 19) :
    Term.v40 (F := Ideal) a0 a1 a2 a3 a4 a7 a9 (ix3 n m h)
      = Affinity.preR (Term.rdata a0 a1 a2 a3 a4 a5 a6 a7 a8 a9) n m h := by
  rw [v40_apply, v28_apply, v31_apply, v36_apply]
  simp only [v8_apply, v7_apply, v23_apply]
  rfl

/-- At the ideal values the reference's result is the specification's array (the reference's grouping). -/
theorem result_eq (a0 : FVec Ideal S60000x16 .f32) (a1 : FVec Ideal S96x1 .f32) (a2 : FVec Ideal S60000x3 .f32)
    (a3 : FVec Ideal S19x39 .f32) (a4 : FVec Ideal S19 .f32) (a5 : FVec Ideal S1x19 .f32) (a6 : FVec Ideal S1 .f32)
    (a7 : IVec S60000x3 32) (a8 : IVec S60000 32) (a9 : IVec S96 32) :
    Term.result (F := Ideal) a0 a1 a2 a3 a4 a5 a6 a7 a8 a9 = Affinity.outR (Term.rdata a0 a1 a2 a3 a4 a5 a6 a7 a8 a9) := by
  funext i
  obtain ⟨n, m, rfl⟩ : ∃ (n : Fin 60000) (m : Fin 96), i = ix2 n m := ⟨i 0, i 1, eq_ix2 i⟩
  unfold Term.result
  have hc : Term.clipV (F := Ideal) (Term.v46 (F := Ideal) a0 a1 a2 a3 a4 a5 a6 a7 a9) (ix2 n m)
      = Affinity.clip (Term.v46 (F := Ideal) a0 a1 a2 a3 a4 a5 a6 a7 a9 (ix2 n m)) := clipV_apply _ _
  rw [select_apply, v60_apply,
    nn8_apply _ _ (by rw [hc]; exact clip_ne_top _) (by rw [hc]; exact clip_ne_bot _), hc,
    broadcastInDim_scalar_apply, v46_apply]
  simp only [v41_apply, v40_eq_preR a0 a1 a2 a3 a4 a5 a6 a7 a8 a9]
  rfl

end Cert.ReferenceIdeal.RefValue

end
-- ==== Proof.lean ====
/-
  The certificate of the affinity head: a Pallas kernel that tiles the voxel axis against a jnp reference.

  Both programs compute, for voxel n and centroid m, the clipped logit of a two-layer perceptron on
  [offsets | voxel descriptor | centroid descriptor | confidence | displacement], masked to -∞ where the batch ids
  differ. The kernel's value is read off its generated frame run block by block (Proof/KerCell.lean: one entry of a
  block; Proof/KerValue.lean: the blocks tile the array), the reference's off its run (Proof/RefRun.lean: @main as a
  list of host operations; Proof/RefValue.lean: the composed function index by index); the two meet in
  Proof/Spec.lean, where the kernel's grouping of the hidden pre-activation (3 + 16 voxel columns, 16 + 1 centroid
  columns with the bias, three displacement terms) is shown to be the reference's (19, 17 and 3 wide products, then the
  bias) by reassociating a sum in the commutative monoid of extended reals. The centroid tables (descriptors,
  coordinates, batch ids at the peak indices) are gathered by the same host operations in both programs and are
  carried as they are. The three frames are the two generated kernel frames and the reference's run with its result
  dropped; the idealization rewrote nothing, so `preserves` is `True`.
-/
import proofs.«143889_j7473243095301_1_alg».proof.Defs
import proofs.«143889_j7473243095301_1_alg».proof.Proof.Gen.Kernel
import proofs.«143889_j7473243095301_1_alg».proof.Proof.Gen.Kernel.Skeleton
import proofs.«143889_j7473243095301_1_alg».proof.Proof.Gen.Kernel.Launch
import proofs.«143889_j7473243095301_1_alg».proof.Proof.Gen.Kernel.Points
import proofs.«143889_j7473243095301_1_alg».proof.Proof.Gen.Kernel.Frame
import proofs.«143889_j7473243095301_1_alg».proof.Proof.Gen.KernelIdeal
import proofs.«143889_j7473243095301_1_alg».proof.Proof.Gen.KernelIdeal.Skeleton
import proofs.«143889_j7473243095301_1_alg».proof.Proof.Gen.KernelIdeal.Launch
import proofs.«143889_j7473243095301_1_alg».proof.Proof.Gen.KernelIdeal.Points
import proofs.«143889_j7473243095301_1_alg».proof.Proof.Gen.KernelIdeal.Frame
import proofs.«143889_j7473243095301_1_alg».proof.Proof.Gen.KernelIdeal.Value
import proofs.«143889_j7473243095301_1_alg».proof.Proof.Gen.ReferenceIdeal
import proofs.«143889_j7473243095301_1_alg».proof.Proof.Gen.Pre_finite_inputs
import proofs.«143889_j7473243095301_1_alg».proof.Proof.Spec
import proofs.«143889_j7473243095301_1_alg».proof.Proof.KerValue
import proofs.«143889_j7473243095301_1_alg».proof.Proof.RefRun
import proofs.«143889_j7473243095301_1_alg».proof.Proof.RefValue
import Idealize.ShloMosaic.Adequacy
import Idealize.ShloMosaic.Init

noncomputable section

namespace Cert.Proof

open Idealize.ShloMosaic Idealize.ShloMosaic.TcCoe Idealize.SL.Sem

/-- The two programs build the specification's arrays from their arguments by the same operations. -/
theorem data_eq (a0 : FVec Ideal Cert.KernelIdeal.S60000x16 .f32) (a1 : FVec Ideal Cert.KernelIdeal.S96x1 .f32)
    (a2 : FVec Ideal Cert.KernelIdeal.S60000x3 .f32) (a3 : FVec Ideal Cert.KernelIdeal.S19x39 .f32)
    (a4 : FVec Ideal Cert.KernelIdeal.S19 .f32) (a5 : FVec Ideal Cert.KernelIdeal.S1x19 .f32)
    (a6 : FVec Ideal Cert.KernelIdeal.S1 .f32) (a7 : IVec Cert.KernelIdeal.S60000x3 32) (a8 : IVec Cert.KernelIdeal.S60000 32)
    (a9 : IVec Cert.KernelIdeal.S96 32) :
    Cert.ReferenceIdeal.Term.rdata a0 a1 a2 a3 a4 a5 a6 a7 a8 a9 = Cert.KernelIdeal.Hand.kdata a0 a1 a2 a3 a4 a5 a6 a7 a8 a9 := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- From memories agreeing on the arguments both programs end at the specification's array: the kernel at its own
    grouping, the reference at its own, and the two groupings are one value. -/
theorem algebraic : Cert.algebraic_KernelIdeal_ReferenceIdeal := by
  intro m ρ m' ρ' _ hagree
  refine ⟨fun c => Affinity.outK (Cert.KernelIdeal.Hand.memData m c), Cert.KernelIdeal.Hand.run m ρ, ?_⟩
  refine (θ_run Cert.ReferenceIdeal.defs _ _).mono (fun _ h c => ⟨(h c).1.trans ?_, (h c).2⟩)
    (Cert.ReferenceIdeal.HandRun.run (F := Ideal) m' ρ')
  obtain ⟨h0, h1, h2, h3, h4, h5, h6, h7, h8, h9⟩ := hagree c
  rw [Cert.ReferenceIdeal.RefValue.result_eq, h0, h1, h2, h3, h4, h5, h6, h7, h8, h9, data_eq]
  exact (Affinity.outK_eq_outR _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
